-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x32 : Shape := ⟨2, ![4096, 32]⟩
abbrev S4096 : Shape := ⟨1, ![4096]⟩
abbrev S2097152 : Shape := ⟨1, ![2097152]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x32 .f32) (main_arg2 : FVec F S4096x32 .f32) (main_arg3 : FVec F S4096 .f32) (main_arg4 : IVec S2097152 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x32 : Shape := ⟨2, ![4096, 32]⟩
abbrev S4096 : Shape := ⟨1, ![4096]⟩
abbrev S2097152 : Shape := ⟨1, ![2097152]⟩
abbrev S8192x4096 : Shape := ⟨2, ![8192, 4096]⟩
abbrev S4096x512 : Shape := ⟨2, ![4096, 512]⟩
abbrev S1x4096 : Shape := ⟨2, ![1, 4096]⟩
abbrev S4096x4096 : Shape := ⟨2, ![4096, 4096]⟩
abbrev S32x512 : Shape := ⟨2, ![32, 512]⟩
abbrev S32x32 : Shape := ⟨2, ![32, 32]⟩
abbrev S32x4096 : Shape := ⟨2, ![32, 4096]⟩
abbrev S1x1x8 : Shape := ⟨3, ![1, 1, 8]⟩
abbrev S32x512x1 : Shape := ⟨3, ![32, 512, 1]⟩
abbrev S32x512x8 : Shape := ⟨3, ![32, 512, 8]⟩
abbrev S32x32x1 : Shape := ⟨3, ![32, 32, 1]⟩
abbrev S32x32x128 : Shape := ⟨3, ![32, 32, 128]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x32, .f32⟩
  | .hbm, ⟨2, _⟩ => ⟨S4096x32, .f32⟩
  | .hbm, ⟨3, _⟩ => ⟨S4096, .f32⟩
  | .hbm, ⟨4, _⟩ => ⟨S2097152, .i32⟩
  | .hbm, ⟨5, _⟩ => ⟨S8192x4096, .f32⟩
  | .hbm, ⟨6, _⟩ => ⟨S4096x512, .i32⟩
  | .hbm, ⟨7, _⟩ => ⟨S1x4096, .f32⟩
  | .hbm, ⟨8, _⟩ => ⟨S4096x4096, .bf16⟩
  | .hbm, ⟨9, _⟩ => ⟨S8192x4096, .f32⟩
  | .hbm, ⟨10, _⟩ => ⟨S4x2048x4096, .f32⟩
  | .local _ .vmem, ⟨0, _⟩ => ⟨S32x512, .i32⟩
  | .local _ .vmem, ⟨1, _⟩ => ⟨S32x512, .i32⟩
  | .local _ .vmem, ⟨2, _⟩ => ⟨S32x32, .f32⟩
  | .local _ .vmem, ⟨3, _⟩ => ⟨S32x32, .f32⟩
  | .local _ .vmem, ⟨4, _⟩ => ⟨S32x32, .f32⟩
  | .local _ .vmem, ⟨5, _⟩ => ⟨S32x32, .f32⟩
  | .local _ .vmem, ⟨6, _⟩ => ⟨S32x4096, .bf16⟩
  | .local _ .vmem, ⟨7, _⟩ => ⟨S32x4096, .bf16⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S2097152_S4096x512 : S2097152.ShapeCasts S4096x512
  shapeCasts_S4096_S1x4096 : S4096.ShapeCasts S1x4096
  inb_S32x512_S32x512_0_0 : ∀ a, (![0, 0] : Fin 2 → Nat) a + S32x512.size a ≤ S32x512.size a
  h_S32x512 : 0 < S32x512.numel
  shapeCasts_S32x512_S32x512 : S32x512.ShapeCasts S32x512
  iota_S1x1x8_d2_w32 : S1x1x8.Iotas .tc 32 [2]
  shapeCasts_S32x512_S32x512x1 : S32x512.ShapeCasts S32x512x1
  broadcasts_S32x512x1_S32x512x8 : S32x512x1.Broadcasts S32x512x8
  broadcasts_S1x1x8_S32x512x8 : S1x1x8.Broadcasts S32x512x8
  shapeCasts_S32x512x8_S32x4096 : S32x512x8.ShapeCasts S32x4096
  inb_S32x32_S32x32_0_0 : ∀ a, (![0, 0] : Fin 2 → Nat) a + S32x32.size a ≤ S32x32.size a
  h_S32x32 : 0 < S32x32.numel
  shapeCasts_S32x32_S32x32x1 : S32x32.ShapeCasts S32x32x1
  shapeCasts_S32x32x1_S32x32x1 : S32x32x1.ShapeCasts S32x32x1
  broadcasts_S32x32x1_S32x32x128 : S32x32x1.Broadcasts S32x32x128
  shapeCasts_S32x32x128_S32x4096 : S32x32x128.ShapeCasts S32x4096
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  packedbf16_S32x4096_S32x4096_0_0 : (Rect.unit (s := S32x4096) ![0, 0] S32x4096.size inb_S32x4096_S32x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S4096x512.size a
  hwx0_0 : ∀ i : grid0.Coords, EltTy.bits .i32 = 32 ∨ (Rect.block (s := S4096x512) S32x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S4096x32.size a
  hwx0_1 : ∀ i : grid0.Coords, EltTy.bits .f32 = 32 ∨ (Rect.block (s := S4096x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S4096x32.size a
  hwx0_2 : ∀ i : grid0.Coords, EltTy.bits .f32 = 32 ∨ (Rect.block (s := S4096x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S4096x4096.size a
  hwx0_3 : ∀ i : grid0.Coords, EltTy.bits .bf16 = 32 ∨ (Rect.block (s := S4096x4096) S32x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x32 : Shape := ⟨2, ![4096, 32]⟩
abbrev S4096 : Shape := ⟨1, ![4096]⟩
abbrev S2097152 : Shape := ⟨1, ![2097152]⟩
abbrev S8 : Shape := ⟨1, ![8]⟩
abbrev S_ : Shape := ⟨0, ![]⟩
abbrev S1x8 : Shape := ⟨2, ![1, 8]⟩
abbrev S2097152x1 : Shape := ⟨2, ![2097152, 1]⟩
abbrev S2097152x8 : Shape := ⟨2, ![2097152, 8]⟩
abbrev S4096x4096 : Shape := ⟨2, ![4096, 4096]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x32, .f32⟩
  | .hbm, ⟨2, _⟩ => ⟨S4096x32, .f32⟩
  | .hbm, ⟨3, _⟩ => ⟨S4096, .f32⟩
  | .hbm, ⟨4, _⟩ => ⟨S2097152, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8, .i32⟩
  | .hbm, ⟨10, _⟩ => ⟨S2097152x1, .i32⟩
  | .hbm, ⟨11, _⟩ => ⟨S2097152x8, .i32⟩
  | .hbm, ⟨12, _⟩ => ⟨S2097152x8, .i32⟩
  | .hbm, ⟨13, _⟩ => ⟨S2097152x8, .i32⟩
  | .hbm, ⟨14, _⟩ => ⟨S_, .i32⟩
  | .hbm, ⟨15, _⟩ => ⟨S2097152x8, .i32⟩
  | .hbm, ⟨16, _⟩ => ⟨S2097152x8, .i32⟩
  | .hbm, ⟨17, _⟩ => ⟨S4096x4096, .i32⟩
  | .hbm, ⟨18, _⟩ => ⟨S4096x4096, .f32⟩
  | .hbm, ⟨19, _⟩ => ⟨S4096x32x128, .f32⟩
  | .hbm, ⟨20, _⟩ => ⟨S4096x32x1, .f32⟩
  | .hbm, ⟨21, _⟩ => ⟨S4096x32x1, .f32⟩
  | .hbm, ⟨22, _⟩ => ⟨S4096x32x128, .f32⟩
  | .hbm, ⟨23, _⟩ => ⟨S4096x32x128, .f32⟩
  | .hbm, ⟨24, _⟩ => ⟨S4096x32x128, .f32⟩
  | .hbm, ⟨25, _⟩ => ⟨S4096x32x128, .f32⟩
  | .hbm, ⟨26, _⟩ => ⟨S4096x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8_1 : S8.BroadcastsInDim S1x8 (![1] : Fin 1 → Fin S1x8.rank)
  bcast_S2097152_S2097152x1_0 : S2097152.BroadcastsInDim S2097152x1 (![0] : Fin 1 → Fin S2097152x1.rank)
  bcast_S2097152x1_S2097152x8_0_1 : S2097152x1.BroadcastsInDim S2097152x8 (![0, 1] : Fin 2 → Fin S2097152x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  shapeCasts_S2097152x8_S4096x4096 : S2097152x8.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KData0.lean ====
/-
  Region 0 (the dequantisation call): what its windows hold, as functions of the buffer contents `V` the region is entered at.

  The grid has 128 points; point `t` sees rows `32·t … 32·t+31` of the packed words (32×512), of the scales and of the zero
  points (32×32 each), and writes the same rows of the 4096×4096 weight matrix. The body's one store writes the whole
  32×4096 output block, its value a function of the three input blocks alone (`Gen.k0_pay1`), so after the body every
  input buffer still holds its block and the output buffer holds that function of them.
-/
import proofs.«401016_j1958505087322_2_alg».proof.Proof.Gen.Kernel.Launch
import proofs.«401016_j1958505087322_2_alg».proof.Proof.Gen.Kernel.Skeleton
import proofs.«401016_j1958505087322_2_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output buffer: the dequantised 32×4096 block, from the packed words' block `x0`, the
    scales' block `x1` and the zero points' block `x2`. -/
def out0_3 (x0 : Vec F S32x512 .i32) (x1 x2 : Vec F S32x32 .f32) : Vec F S32x4096 .bf16 := k0_pay1 x0 x1 x2

/-- Region 0's proof data on core `c`: the arrays as the region finds them; after the body at point `t` each input's
    buffer at its block and the output's at the dequantised block; no invariant beyond the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.KBody0.lean ====
/-
  Region 0's body, run at any point: it loads the three input blocks whole, loads the output block (a value it does not
  use), and stores the dequantised block over the whole output buffer. So each input buffer ends as it was and the output
  buffer ends at that function of the three blocks, which is what the pipeline's proof data say.
-/
import proofs.«401016_j1958505087322_2_alg».proof.Proof.KData0
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its block at every point -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's triple -/

theorem zero2 : (![0, 0] : Fin 2 → Nat) = fun _ => 0 := by
  funext a; match a with | ⟨0, _⟩ => rfl | ⟨1, _⟩ => rfl

set_option maxHeartbeats 1000000 in
/-- The body on whole staging memrefs, the inputs' at contents `x0`, `x1`, `x2` and the output's at anything, runs to the
    continuation holding the inputs' as they were and the output's at the dequantised block. -/
theorem sound_kernel0 (c : Dev nD) (E : Set ℕ) (i : grid0.Coords)
    (arg1 : Memref sig .tc .vmem S32x512 .i32) (harg1 : arg1.IsWhole) (arg2 : Memref sig .tc .vmem S32x32 .f32) (harg2 : arg2.IsWhole)
    (arg3 : Memref sig .tc .vmem S32x32 .f32) (harg3 : arg3.IsWhole) (arg4 : Memref sig .tc .vmem S32x4096 .bf16) (harg4 : arg4.IsWhole)
    (x0 : Vec F S32x512 .i32) (x1 x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out0_3
  rw [View.read_writes_eq_canon _ _ _ (fun y => ⟨_, List.mem_singleton_self _, View.mem_set_unit_zero zero2 inb_S32x4096_S32x4096_0_0 y⟩),
    View.canon_unit_zero zero2]
  simp only [View.readAt_eq_ld, View.ld_unit_zero (S := S32x512) zero2, View.ld_unit_zero (S := S32x32) zero2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KData1.lean ====
/-
  Region 1 (the matrix product): what its windows and its accumulator hold, as functions of the buffer contents `V`
  the region is entered at.

  The grid is 8 × 4 × 8, the last coordinate `k` running fastest, so point `t` has `k = t % 8`. At `(i, j, k)` the body
  sees a 1024×512 block of the rows (row block `i`, column block `k`), a 1024×512 block of the weights (row block `j`,
  column block `k`), the bias's columns `1024·j …` and the 1024×1024 output block `(i, j)`. It keeps a 1024×1024
  accumulator between points: cleared where `k = 0`, then at every point increased by the product of the two blocks
  (`Gen.k1_pay2`); where `k = 7` the accumulator plus the bias row is stored into the output block (`Gen.k1_pay3`),
  which is written back there and only there.
-/
import proofs.«401016_j1958505087322_2_alg».proof.Proof.Gen.Kernel.Launch
import proofs.«401016_j1958505087322_2_alg».proof.Proof.Gen.Kernel.Skeleton
import proofs.«401016_j1958505087322_2_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: where `n % 8 = 0` the product of the point's blocks added to the
    cleared accumulator, elsewhere added to what the point before left. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

/-- At a point with `k = 0` the accumulator restarts from zero. -/
theorem accAt_first (c : Dev nD) (t : Fin cfg1.N) (h : t.val % 8 = 0) :
    accAt V c t.val t.isLt = k1_pay2 (iblk1 V c 0 t) (iblk1 V c 1 t) (k1_pay1 (F := F)) := by
  obtain ⟨n, hn⟩ := t
  cases n with
  | zero => rfl
  | succ n => exact if_pos h

/-- At a point with `k ≠ 0` the accumulator continues from the point before. -/
theorem accAt_next (c : Dev nD) (t : Fin cfg1.N) (h : ¬t.val % 8 = 0) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- What the body stores into the output block where `k = 7`: the accumulator plus the bias row. -/
def out1_3 (a : Vec F S1024x1024 .f32) (b : Vec F S1x1024 .f32) : Vec F S1024x1024 .f32 := k1_pay3 a b

/-- The accumulator's buffer, whole. -/
abbrev scM : Memref sig .tc .vmem S1024x1024 .f32 := Memref.whole cc1_scratch0

/-- The core's scoped buffers that region 1 does not stage — region 0's eight staging buffers at anything, then the
    accumulator as `S` says — beside the generator register at some state. -/
def restWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ S) ∗ ∃ r, prngReg c r)

/-- The region's invariant before position `n`: before the first point the accumulator holds anything; afterwards what
    the point before left. -/
def PhiS (c : Dev nD) : (n : ℕ) → n ≤ cfg1.N → sProp 𝕄
  | 0, _ => Pipeline.ΦA spec1 c
  | n + 1, hn => restWith c (owns (c : Thread nD τ) scM fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = restWith c (owns (c : Thread nD τ) scM fullShare (accAt V c n hn)) := rfl

theorem PhiS_pos (c : Dev nD) (n : ℕ) (h : n ≤ cfg1.N) (hz : n ≠ 0) :
    PhiS V c n h = restWith c (owns (c : Thread nD τ) scM fullShare (accAt V c (n - 1) (by omega))) := by
  cases n with
  | zero => exact absurd rfl hz
  | succ n => rfl

/-- Region 1's proof data on core `c`: the arrays as the region finds them; after the body at point `t` each input's
    buffer at its block and the output's at the accumulator plus the bias row (consulted only where `k = 7`); the
    invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (accAt V c t.val t.isLt) (iblk1 V c 2 t) := by dsimp only [dat1]

theorem Phi1_castSucc (c : Dev nD) (t : Fin cfg1.N) :
    (dat1 V c).Φ t.castSucc = PhiS V c t.val (Nat.le_of_lt t.isLt) := by
  dsimp only [dat1]; simp only [Fin.coe_castSucc]

end Cert.Kernel.Hand

end
-- ==== Proof.KBody1.lean ====
/-
  Region 1's body, run at any point, by the three cases its two conditionals make over a run of `k`:
  where `k = 0` it clears the accumulator and then adds the point's block product to it; where `0 < k < 7` it only
  adds; where `k = 7` it adds and then stores the accumulator plus the bias row into the output block. The output
  buffer is untouched in the first two cases and written whole in the third, which is exactly where the pipeline
  writes it back.
-/
import proofs.«401016_j1958505087322_2_alg».proof.Proof.KData1
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions, in closed form over the grid -/

/-- The first conditional's condition, `k = 0`, as the body computes it from the coordinates. -/
abbrev condA (i : grid1.Coords) : Prop :=
  (Scalar.cmpi .ne (Scalar.extui (Scalar.cmpi .eq (BitVec.ofNat 32 (i 2).val) 0#32)) 0#32) = 1#1
theorem hcondA : ∀ t : Fin cfg1.N, condA (grid1.coords t) ↔ t.val % 8 = 0 :=
  (by decide +kernel : ∀ t : Fin grid1.N, condA (grid1.coords t) ↔ t.val % 8 = 0)
/-- The second conditional's condition, `k = 7`. -/
abbrev condC (i : grid1.Coords) : Prop := k1_cond2 i = 1#1
theorem hcondC : ∀ t : Fin cfg1.N, condC (grid1.coords t) ↔ t.val % 8 = 7 :=
  (by decide +kernel : ∀ t : Fin grid1.N, condC (grid1.coords t) ↔ t.val % 8 = 7)

/-- Where `k ≠ 7` the output window is idle and is not written back; where `k = 7` it is live. -/
theorem idleAt1_3 : ∀ t : Fin cfg1.N, ¬condC (grid1.coords t) → cfg1.idle 3 (grid1.coords t) = true := by decide +kernel
theorem noFlush1_3 : ∀ t : Fin cfg1.N, ¬condC (grid1.coords t) → (cfg1.win 3).flush t = false := by decide +kernel
theorem liveAt1_3 : ∀ t : Fin cfg1.N, condC (grid1.coords t) → cfg1.idle 3 (grid1.coords t) = false := by decide +kernel

/-! ## Each input buffer holds its block at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body's triple, case by case -/

theorem zero2' : (![0, 0] : Fin 2 → Nat) = fun _ => 0 := by
  funext a; match a with | ⟨0, _⟩ => rfl | ⟨1, _⟩ => rfl

set_option maxHeartbeats 2000000 in
/-- Where `k = 0`: the accumulator, at anything, ends at the block product added to the cleared accumulator. -/
theorem run1_A (c : Dev nD) (E : Set ℕ) (i : grid1.Coords) (hA : condA i) (hC : ¬condC i)
    (arg3 : Memref sig .tc .vmem S1024x512 .f32) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x512 .f32) (w : Vec F S1024x512 .bf16) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  subst hf3; subst hf4
  sl_exec (disch := first | exact hA | exact hC)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  rw [View.read_writes_eq_canon _ _ _ (fun y => ⟨_, List.mem_cons_self .., View.mem_set_unit_zero zero2' inb_S1024x1024_S1024x1024_0_0 y⟩),
    View.canon_cons_unit_zero zero2']
  simp only [View.readAt_eq_ld, View.ld_unit_zero (S := S1024x512) zero2', View.ld_unit_zero (S := S1024x1024) zero2',
    View.readCov_unit_zero (S := S1024x1024) _ zero2']

set_option maxHeartbeats 2000000 in
/-- Where `0 < k < 7`: the accumulator, at `a`, ends at the block product added to `a`. -/
theorem run1_B (c : Dev nD) (E : Set ℕ) (i : grid1.Coords) (hA : ¬condA i) (hC : ¬condC i)
    (arg3 : Memref sig .tc .vmem S1024x512 .f32) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x512 .f32) (w : Vec F S1024x512 .bf16) (a : Vec F S1024x1024 .f32) (K : PUnit → sProp 𝕄) :
    iprop(owns (c : Thread nD τ) arg3 fullShare x ∗ owns (c : Thread nD τ) arg4 fullShare w ∗ owns (c : Thread nD τ) arg7 fullShare a
        ∗ (iprop(owns (c : Thread nD τ) arg3 fullShare x ∗ owns (c : Thread nD τ) arg4 fullShare w
            ∗ owns (c : Thread nD τ) arg7 fullShare (k1_pay2 x w a)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  subst hf3; subst hf4; subst hf7
  sl_exec (disch := first | exact hA | exact hC)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  try sl_unfold_words
  rw [View.read_writes_eq_canon _ _ _ (fun y => ⟨_, List.mem_cons_self .., View.mem_set_unit_zero zero2' inb_S1024x1024_S1024x1024_0_0 y⟩),
    View.canon_cons_unit_zero zero2']
  simp only [View.readAt_eq_ld, View.ld_unit_zero (S := S1024x512) zero2', View.ld_unit_zero (S := S1024x1024) zero2',
    View.ld_unit_zero (S := S1x1024) zero2', View.readCov_unit_zero (S := S1024x1024) _ zero2']

set_option maxHeartbeats 2000000 in
/-- Where `k = 7`: the accumulator, at `a`, ends at the block product added to `a`, and the output buffer, at anything,
    ends at that plus the bias row `b`. -/
theorem run1_C (c : Dev nD) (E : Set ℕ) (i : grid1.Coords) (hA : ¬condA i) (hC : condC i)
    (arg3 : Memref sig .tc .vmem S1024x512 .f32) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x512 .f32) (w : Vec F S1024x512 .bf16) (b : Vec F S1x1024 .f32) (a : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w a) b)
            ∗ owns (c : Thread nD τ) arg7 fullShare (k1_pay2 x w a)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hA | exact hC)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [View.read_writes_eq_canon _ _ _ (fun y => ⟨_, List.mem_cons_self .., View.mem_set_unit_zero zero2' inb_S1024x1024_S1024x1024_0_0 y⟩),
      View.canon_cons_unit_zero zero2']
    simp only [View.readAt_eq_ld, View.ld_unit_zero (S := S1024x512) zero2', View.ld_unit_zero (S := S1024x1024) zero2',
      View.ld_unit_zero (S := S1x1024) zero2', View.readCov_unit_zero (S := S1024x1024) _ zero2']
  iexists _; isplitr
  swap; · iexact H7
  ipureintro
  try sl_unfold_words
  rw [View.read_writes_eq_canon _ _ _ (fun y => ⟨_, List.mem_cons_self .., View.mem_set_unit_zero zero2' inb_S1024x1024_S1024x1024_0_0 y⟩),
    View.canon_cons_unit_zero zero2']
  simp only [View.readAt_eq_ld, View.ld_unit_zero (S := S1024x512) zero2', View.ld_unit_zero (S := S1024x1024) zero2',
    View.ld_unit_zero (S := S1x1024) zero2', View.readCov_unit_zero (S := S1024x1024) _ zero2']

/-! ## The invariant, opened at the accumulator -/

/-- The accumulator at anything. -/
abbrev accAny (c : Dev nD) : sProp 𝕄 := iprop(∃ d, owns (c : Thread nD τ) scM fullShare d)

/-- The accumulator's slot of the invariant can be taken out and any other contents put back. -/
theorem restWith_frame (c : Dev nD) (S S' : sProp 𝕄) : restWith c S ⊢ iprop(S ∗ (S' -∗ restWith c S')) := by
  unfold restWith
  iintro ⟨⟨H1, H2, H3, H4, H5, H6, H7, H8, HS⟩, Hg⟩
  isplitl [HS]; · iexact HS
  iintro HS'
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS'
  · iexact Hg

/-- What the launch hands a region — every scoped buffer it does not stage at anything, and the generator register —
    is the invariant with the accumulator at anything. -/
theorem PhiA1_eq (c : Dev nD) :
    (Pipeline.ΦA spec1 c : sProp 𝕄) = restWith c (accAny c) := by
  unfold Pipeline.ΦA restWith; rw [scopedRest1_eq]; simp only [accAny, scM, owns_whole]; try rfl

/-- Before the first point the invariant is what the launch hands the region. -/
theorem Phi1_in (c : Dev nD) : (dat1 V c).Φ 0 = Pipeline.ΦA spec1 c := rfl

/-- After the last point the invariant gives that back: the accumulator's named contents are forgotten. -/
theorem Phi1_out (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro H
  ihave HX := (restWith_frame c _ (accAny c)) $$ H
  icases HX with ⟨HS, Hback⟩
  iapply Hback
  iexists _; iexact HS

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]

set_option maxHeartbeats 2000000 in
/-- The body at any point: the inputs' memrefs hold their blocks; `t % 8` says which case the point is in; the invariant
    hands the body the accumulator at what the point before left (at anything at the first point) and takes it back at
    this point's contents; where `k ≠ 7` the output's buffer is handed back untouched, where `k = 7` it holds the
    accumulator plus the bias row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 8 = 0
  · have h7 : ¬t.val % 8 = 7 := by omega
    have hA : condA (grid1.coords t) := (hcondA t).mpr h0
    have hC : ¬condC (grid1.coords t) := fun h => h7 ((hcondC t).mp h)
    rw [Dat.leavesExact_idle (dat1 V c) 3 t (idleAt1_3 t hC) (noFlush1_3 t hC), accAt_first V c t h0]
    have hΦ : (dat1 V c).Φ t.castSucc ⊢ restWith c (accAny c) := by
      rw [Phi1_castSucc V c t]
      by_cases hz : t.val = 0
      · rw [PhiS_zero V c _ _ hz, PhiA1_eq]
      · rw [PhiS_pos V c _ _ hz]
        iintro H
        ihave HX := (restWith_frame c _ (accAny c)) $$ H
        icases HX with ⟨HS, Hback⟩
        iapply Hback
        iexists _; iexact HS
    iintro ⟨HΦ, Ho, ⟨%d0, H0⟩, ⟨%d1, H1⟩, ⟨%d2, H2⟩, H3⟩
    ihave HΦ' := hΦ $$ HΦ
    ihave HX := (restWith_frame c _ (owns (c : Thread nD τ) scM fullShare
      (k1_pay2 (iblk1 V c 0 t) (iblk1 V c 1 t) (k1_pay1 (F := F))))) $$ HΦ'
    icases HX with ⟨HS, Hback⟩
    iapply (run1_A c Set.univ (grid1.coords t) hA hC _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS Hback]
    · iapply Hback; iexact HS
    isplitl [Ho]; · iexact Ho
    isplitl [H0]; · iexact H0
    isplitl [H1]; · iexact H1
    isplitl [H2]; · iexact H2
    iexact H3
  · have hz : t.val ≠ 0 := fun e => h0 (by rw [e])
    have hA : ¬condA (grid1.coords t) := fun h => h0 ((hcondA t).mp h)
    rw [Phi1_castSucc V c t, PhiS_pos V c _ _ hz, accAt_next V c t h0]
    by_cases h7 : t.val % 8 = 7
    · have hC : condC (grid1.coords t) := (hcondC t).mpr h7
      rw [show (dat1 V c).leavesExact 3 t = owns (c : Thread nD τ) (st1_3 t) fullShare ((dat1 V c).after 3 t) from by
        unfold Dat.leavesExact; rw [liveAt1_3 t hC], after1_3, accAt_next V c t h0]
      unfold out1_3
      iintro ⟨HΦ, Ho, ⟨%d0, H0⟩, ⟨%d1, H1⟩, ⟨%d2, H2⟩, ⟨%d3, H3⟩⟩
      ihave HX := (restWith_frame c _ (owns (c : Thread nD τ) scM fullShare
        (k1_pay2 (iblk1 V c 0 t) (iblk1 V c 1 t) (accAt V c (t.val - 1) (Nat.lt_of_le_of_lt (Nat.sub_le _ _) t.isLt))))) $$ HΦ
      icases HX with ⟨HS, Hback⟩
      iapply (run1_C c Set.univ (grid1.coords t) hA hC _ _ _ _ _ _ _ _ _ _ (iblk1 V c 0 t) (iblk1 V c 1 t) (iblk1 V c 2 t)
        (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hback]
      · iapply Hback; iexact HS
      isplitl [Ho]; · iexact Ho
      isplitl [H0]; · iexact H0
      isplitl [H1]; · iexact H1
      isplitl [H2]; · iexact H2
      iexact H3
    · have hC : ¬condC (grid1.coords t) := fun h => h7 ((hcondC t).mp h)
      rw [Dat.leavesExact_idle (dat1 V c) 3 t (idleAt1_3 t hC) (noFlush1_3 t hC)]
      iintro ⟨HΦ, Ho, ⟨%d0, H0⟩, ⟨%d1, H1⟩, ⟨%d2, H2⟩, H3⟩
      ihave HX := (restWith_frame c _ (owns (c : Thread nD τ) scM fullShare
        (k1_pay2 (iblk1 V c 0 t) (iblk1 V c 1 t) (accAt V c (t.val - 1) (Nat.lt_of_le_of_lt (Nat.sub_le _ _) t.isLt))))) $$ HΦ
      icases HX with ⟨HS, Hback⟩
      iapply (run1_B c Set.univ (grid1.coords t) hA hC _ _ _ _ _ _ _ _ _ _ (iblk1 V c 0 t) (iblk1 V c 1 t)
        (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback]
      · iapply Hback; iexact HS
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KChain.lean ====
/-
  The buffer contents at each boundary of @main, folded from the launch memory:
  the three reshapes of the arguments; region 0, which leaves its arrays at what its write-backs fold to and touches
  nothing else; region 1, the same; the closing reshape of the result. No step writes an argument, so each argument's
  buffer walks back through the fold to its launch contents.
-/
import proofs.«401016_j1958505087322_2_alg».proof.Proof.KData0
import proofs.«401016_j1958505087322_2_alg».proof.Proof.KData1
import proofs.«401016_j1958505087322_2_alg».proof.Proof.Gen.Kernel.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- Core `c`'s buffers at launch. -/
abbrev W0 : Dev nD → Valuation τ sig (Elt F) := fun c => Gen.V0 m c
/-- After the three reshapes (region 0's entry). -/
abbrev W1 : Dev nD → Valuation τ sig (Elt F) := fun c => Gen.V1 m c
/-- The same read at the TensorCore's references. -/
abbrev E1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 1's entry: no host operation stands between the regions). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the closing reshape: what @main returns with. -/
abbrev W4 : Dev nD → Valuation τ sig (Elt F) := fun c => StableHlo.after hostOps2 (W3 m c)

theorem W4_of (c : Dev nD) (r : Ref sig .tc) (h : r ∉ hostOps2_W) : W4 m c r = W3 m c r :=
  StableHlo.after_of_writes_sub hostOps2 _ hostOps2_writes h

/-! ### The arguments end as launched -/

theorem W4_main_arg0 (c : Dev nD) : W4 m c (Proc.devRef .tc main_arg0) = m ((c : Thread nD τ).loc main_arg0) :=
  (W4_of m c main_arg0 (by decide)).trans <| (W3_of_ne m c main_arg0 (by decide)).trans <|
    (W2_of_ne m c main_arg0 (by decide)).trans <| (Gen.V1_of m c main_arg0 (by decide)).trans rfl
theorem W4_main_arg3 (c : Dev nD) : W4 m c (Proc.devRef .tc main_arg3) = m ((c : Thread nD τ).loc main_arg3) :=
  (W4_of m c main_arg3 (by decide)).trans <| (W3_of_ne m c main_arg3 (by decide)).trans <|
    (W2_of_ne m c main_arg3 (by decide)).trans <| (Gen.V1_of m c main_arg3 (by decide)).trans rfl
theorem W4_main_arg4 (c : Dev nD) : W4 m c (Proc.devRef .tc main_arg4) = m ((c : Thread nD τ).loc main_arg4) :=
  (W4_of m c main_arg4 (by decide)).trans <| (W3_of_ne m c main_arg4 (by decide)).trans <|
    (W2_of_ne m c main_arg4 (by decide)).trans <| (Gen.V1_of m c main_arg4 (by decide)).trans rfl
/-- The scales are region 0's window 1, an input: the pipeline leaves an input's array as it found it. -/
theorem W4_main_arg1 (c : Dev nD) : W4 m c (Proc.devRef .tc main_arg1) = m ((c : Thread nD τ).loc main_arg1) :=
  (W4_of m c main_arg1 (by decide)).trans <| (W3_of_ne m c main_arg1 (by decide)).trans <|
    ((W2_arr m c 1).trans (((dat0 (E1 m) c).arrAt_in 1 rfl _).trans (A_eq0 (E1 m) c 1))).trans <|
      (Gen.V1_of m c main_arg1 (by decide)).trans rfl
/-- The zero points are region 0's window 2, an input. -/
theorem W4_main_arg2 (c : Dev nD) : W4 m c (Proc.devRef .tc main_arg2) = m ((c : Thread nD τ).loc main_arg2) :=
  (W4_of m c main_arg2 (by decide)).trans <| (W3_of_ne m c main_arg2 (by decide)).trans <|
    ((W2_arr m c 2).trans (((dat0 (E1 m) c).arrAt_in 2 rfl _).trans (A_eq0 (E1 m) c 2))).trans <|
      (Gen.V1_of m c main_arg2 (by decide)).trans rfl

end Cert.Kernel.Hand

end
-- ==== Proof.KRun.lean ====
/-
  @main from the launch to the return: the three reshapes, region 0, region 1, the closing reshape, as four segments
  whose thread state is "every buffer that outlives the regions at the boundary's contents, the generator register at
  some state, nothing owed". Each region takes its arrays out of those buffers and puts them back at what its
  write-backs leave; region 1's accumulator lives in its invariant only. Every weakly fair execution terminates, and
  the final memory holds each such buffer at the last boundary's contents.
-/
import proofs.«401016_j1958505087322_2_alg».proof.Proof.KBody0
import proofs.«401016_j1958505087322_2_alg».proof.Proof.KBody1
import proofs.«401016_j1958505087322_2_alg».proof.Proof.KChain
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that outlives the regions is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every buffer at the contents after the reshapes, left with its arrays at what its
    write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left (no host operation stands between them), left with its arrays at what
    its write-backs leave. The accumulator enters its invariant at anything and leaves it at anything. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) Gen.adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) :=
  Gen.main_segs Gen.adm (pdats m) () 𝒱₀ L lv _ _ (reg0 m) (reg1 m) rfl rfl c

set_option backward.isDefEq.respectTransparency.types false in
/-- From any memory with zero counters every weakly fair execution of @main terminates, nothing faulting, and the final
    memory holds every buffer that outlives the regions at the contents the fold through @main computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Hand

end
-- ==== Proof.Data0.lean ====
/-
  Region 0 (the dequantisation call): what its windows hold, as functions of the buffer contents `V` the region is entered at.

  The grid has 128 points; point `t` sees rows `32·t … 32·t+31` of the packed words (32×512), of the scales and of the zero
  points (32×32 each), and writes the same rows of the 4096×4096 weight matrix. The body's one store writes the whole
  32×4096 output block, its value a function of the three input blocks alone (`Gen.k0_pay1`), so after the body every
  input buffer still holds its block and the output buffer holds that function of them.
-/
import proofs.«401016_j1958505087322_2_alg».proof.Proof.Gen.KernelIdeal.Launch
import proofs.«401016_j1958505087322_2_alg».proof.Proof.Gen.KernelIdeal.Skeleton
import proofs.«401016_j1958505087322_2_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output buffer: the dequantised 32×4096 block, from the packed words' block `x0`, the
    scales' block `x1` and the zero points' block `x2`. -/
def out0_3 (x0 : Vec F S32x512 .i32) (x1 x2 : Vec F S32x32 .f32) : Vec F S32x4096 .bf16 := k0_pay1 x0 x1 x2

/-- Region 0's proof data on core `c`: the arrays as the region finds them; after the body at point `t` each input's
    buffer at its block and the output's at the dequantised block; no invariant beyond the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.Body0.lean ====
/-
  Region 0's body, run at any point: it loads the three input blocks whole, loads the output block (a value it does not
  use), and stores the dequantised block over the whole output buffer. So each input buffer ends as it was and the output
  buffer ends at that function of the three blocks, which is what the pipeline's proof data say.
-/
import proofs.«401016_j1958505087322_2_alg».proof.Proof.Data0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its block at every point -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's triple -/

theorem zero2 : (![0, 0] : Fin 2 → Nat) = fun _ => 0 := by
  funext a; match a with | ⟨0, _⟩ => rfl | ⟨1, _⟩ => rfl

set_option maxHeartbeats 1000000 in
/-- The body on whole staging memrefs, the inputs' at contents `x0`, `x1`, `x2` and the output's at anything, runs to the
    continuation holding the inputs' as they were and the output's at the dequantised block. -/
theorem sound_kernel0 (c : Dev nD) (E : Set ℕ) (i : grid0.Coords)
    (arg1 : Memref sig .tc .vmem S32x512 .i32) (harg1 : arg1.IsWhole) (arg2 : Memref sig .tc .vmem S32x32 .f32) (harg2 : arg2.IsWhole)
    (arg3 : Memref sig .tc .vmem S32x32 .f32) (harg3 : arg3.IsWhole) (arg4 : Memref sig .tc .vmem S32x4096 .bf16) (harg4 : arg4.IsWhole)
    (x0 : Vec F S32x512 .i32) (x1 x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out0_3
  rw [View.read_writes_eq_canon _ _ _ (fun y => ⟨_, List.mem_singleton_self _, View.mem_set_unit_zero zero2 inb_S32x4096_S32x4096_0_0 y⟩),
    View.canon_unit_zero zero2]
  simp only [View.readAt_eq_ld, View.ld_unit_zero (S := S32x512) zero2, View.ld_unit_zero (S := S32x32) zero2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Data1.lean ====
/-
  Region 1 (the matrix product): what its windows and its accumulator hold, as functions of the buffer contents `V`
  the region is entered at.

  The grid is 8 × 4 × 8, the last coordinate `k` running fastest, so point `t` has `k = t % 8`. At `(i, j, k)` the body
  sees a 1024×512 block of the rows (row block `i`, column block `k`), a 1024×512 block of the weights (row block `j`,
  column block `k`), the bias's columns `1024·j …` and the 1024×1024 output block `(i, j)`. It keeps a 1024×1024
  accumulator between points: cleared where `k = 0`, then at every point increased by the product of the two blocks
  (`Gen.k1_pay2`); where `k = 7` the accumulator plus the bias row is stored into the output block (`Gen.k1_pay3`),
  which is written back there and only there.
-/
import proofs.«401016_j1958505087322_2_alg».proof.Proof.Gen.KernelIdeal.Launch
import proofs.«401016_j1958505087322_2_alg».proof.Proof.Gen.KernelIdeal.Skeleton
import proofs.«401016_j1958505087322_2_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: where `n % 8 = 0` the product of the point's blocks added to the
    cleared accumulator, elsewhere added to what the point before left. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

/-- At a point with `k = 0` the accumulator restarts from zero. -/
theorem accAt_first (c : Dev nD) (t : Fin cfg1.N) (h : t.val % 8 = 0) :
    accAt V c t.val t.isLt = k1_pay2 (iblk1 V c 0 t) (iblk1 V c 1 t) (k1_pay1 (F := F)) := by
  obtain ⟨n, hn⟩ := t
  cases n with
  | zero => rfl
  | succ n => exact if_pos h

/-- At a point with `k ≠ 0` the accumulator continues from the point before. -/
theorem accAt_next (c : Dev nD) (t : Fin cfg1.N) (h : ¬t.val % 8 = 0) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- What the body stores into the output block where `k = 7`: the accumulator plus the bias row. -/
def out1_3 (a : Vec F S1024x1024 .f32) (b : Vec F S1x1024 .f32) : Vec F S1024x1024 .f32 := k1_pay3 a b

/-- The accumulator's buffer, whole. -/
abbrev scM : Memref sig .tc .vmem S1024x1024 .f32 := Memref.whole cc1_scratch0

/-- The core's scoped buffers that region 1 does not stage — region 0's eight staging buffers at anything, then the
    accumulator as `S` says — beside the generator register at some state. -/
def restWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ S) ∗ ∃ r, prngReg c r)

/-- The region's invariant before position `n`: before the first point the accumulator holds anything; afterwards what
    the point before left. -/
def PhiS (c : Dev nD) : (n : ℕ) → n ≤ cfg1.N → sProp 𝕄
  | 0, _ => Pipeline.ΦA spec1 c
  | n + 1, hn => restWith c (owns (c : Thread nD τ) scM fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = restWith c (owns (c : Thread nD τ) scM fullShare (accAt V c n hn)) := rfl

theorem PhiS_pos (c : Dev nD) (n : ℕ) (h : n ≤ cfg1.N) (hz : n ≠ 0) :
    PhiS V c n h = restWith c (owns (c : Thread nD τ) scM fullShare (accAt V c (n - 1) (by omega))) := by
  cases n with
  | zero => exact absurd rfl hz
  | succ n => rfl

/-- Region 1's proof data on core `c`: the arrays as the region finds them; after the body at point `t` each input's
    buffer at its block and the output's at the accumulator plus the bias row (consulted only where `k = 7`); the
    invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (accAt V c t.val t.isLt) (iblk1 V c 2 t) := by dsimp only [dat1]

theorem Phi1_castSucc (c : Dev nD) (t : Fin cfg1.N) :
    (dat1 V c).Φ t.castSucc = PhiS V c t.val (Nat.le_of_lt t.isLt) := by
  dsimp only [dat1]; simp only [Fin.coe_castSucc]

end Cert.KernelIdeal.Hand

end
-- ==== Proof.Body1.lean ====
/-
  Region 1's body, run at any point, by the three cases its two conditionals make over a run of `k`:
  where `k = 0` it clears the accumulator and then adds the point's block product to it; where `0 < k < 7` it only
  adds; where `k = 7` it adds and then stores the accumulator plus the bias row into the output block. The output
  buffer is untouched in the first two cases and written whole in the third, which is exactly where the pipeline
  writes it back.
-/
import proofs.«401016_j1958505087322_2_alg».proof.Proof.Data1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions, in closed form over the grid -/

/-- The first conditional's condition, `k = 0`, as the body computes it from the coordinates. -/
abbrev condA (i : grid1.Coords) : Prop :=
  (Scalar.cmpi .ne (Scalar.extui (Scalar.cmpi .eq (BitVec.ofNat 32 (i 2).val) 0#32)) 0#32) = 1#1
theorem hcondA : ∀ t : Fin cfg1.N, condA (grid1.coords t) ↔ t.val % 8 = 0 :=
  (by decide +kernel : ∀ t : Fin grid1.N, condA (grid1.coords t) ↔ t.val % 8 = 0)
/-- The second conditional's condition, `k = 7`. -/
abbrev condC (i : grid1.Coords) : Prop := k1_cond2 i = 1#1
theorem hcondC : ∀ t : Fin cfg1.N, condC (grid1.coords t) ↔ t.val % 8 = 7 :=
  (by decide +kernel : ∀ t : Fin grid1.N, condC (grid1.coords t) ↔ t.val % 8 = 7)

/-- Where `k ≠ 7` the output window is idle and is not written back; where `k = 7` it is live. -/
theorem idleAt1_3 : ∀ t : Fin cfg1.N, ¬condC (grid1.coords t) → cfg1.idle 3 (grid1.coords t) = true := by decide +kernel
theorem noFlush1_3 : ∀ t : Fin cfg1.N, ¬condC (grid1.coords t) → (cfg1.win 3).flush t = false := by decide +kernel
theorem liveAt1_3 : ∀ t : Fin cfg1.N, condC (grid1.coords t) → cfg1.idle 3 (grid1.coords t) = false := by decide +kernel

/-! ## Each input buffer holds its block at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body's triple, case by case -/

theorem zero2' : (![0, 0] : Fin 2 → Nat) = fun _ => 0 := by
  funext a; match a with | ⟨0, _⟩ => rfl | ⟨1, _⟩ => rfl

set_option maxHeartbeats 2000000 in
/-- Where `k = 0`: the accumulator, at anything, ends at the block product added to the cleared accumulator. -/
theorem run1_A (c : Dev nD) (E : Set ℕ) (i : grid1.Coords) (hA : condA i) (hC : ¬condC i)
    (arg3 : Memref sig .tc .vmem S1024x512 .f32) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x512 .f32) (w : Vec F S1024x512 .bf16) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  subst hf3; subst hf4
  sl_exec (disch := first | exact hA | exact hC)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  rw [View.read_writes_eq_canon _ _ _ (fun y => ⟨_, List.mem_cons_self .., View.mem_set_unit_zero zero2' inb_S1024x1024_S1024x1024_0_0 y⟩),
    View.canon_cons_unit_zero zero2']
  simp only [View.readAt_eq_ld, View.ld_unit_zero (S := S1024x512) zero2', View.ld_unit_zero (S := S1024x1024) zero2',
    View.readCov_unit_zero (S := S1024x1024) _ zero2']

set_option maxHeartbeats 2000000 in
/-- Where `0 < k < 7`: the accumulator, at `a`, ends at the block product added to `a`. -/
theorem run1_B (c : Dev nD) (E : Set ℕ) (i : grid1.Coords) (hA : ¬condA i) (hC : ¬condC i)
    (arg3 : Memref sig .tc .vmem S1024x512 .f32) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x512 .f32) (w : Vec F S1024x512 .bf16) (a : Vec F S1024x1024 .f32) (K : PUnit → sProp 𝕄) :
    iprop(owns (c : Thread nD τ) arg3 fullShare x ∗ owns (c : Thread nD τ) arg4 fullShare w ∗ owns (c : Thread nD τ) arg7 fullShare a
        ∗ (iprop(owns (c : Thread nD τ) arg3 fullShare x ∗ owns (c : Thread nD τ) arg4 fullShare w
            ∗ owns (c : Thread nD τ) arg7 fullShare (k1_pay2 x w a)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  subst hf3; subst hf4; subst hf7
  sl_exec (disch := first | exact hA | exact hC)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  try sl_unfold_words
  rw [View.read_writes_eq_canon _ _ _ (fun y => ⟨_, List.mem_cons_self .., View.mem_set_unit_zero zero2' inb_S1024x1024_S1024x1024_0_0 y⟩),
    View.canon_cons_unit_zero zero2']
  simp only [View.readAt_eq_ld, View.ld_unit_zero (S := S1024x512) zero2', View.ld_unit_zero (S := S1024x1024) zero2',
    View.ld_unit_zero (S := S1x1024) zero2', View.readCov_unit_zero (S := S1024x1024) _ zero2']

set_option maxHeartbeats 2000000 in
/-- Where `k = 7`: the accumulator, at `a`, ends at the block product added to `a`, and the output buffer, at anything,
    ends at that plus the bias row `b`. -/
theorem run1_C (c : Dev nD) (E : Set ℕ) (i : grid1.Coords) (hA : ¬condA i) (hC : condC i)
    (arg3 : Memref sig .tc .vmem S1024x512 .f32) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x512 .f32) (w : Vec F S1024x512 .bf16) (b : Vec F S1x1024 .f32) (a : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w a) b)
            ∗ owns (c : Thread nD τ) arg7 fullShare (k1_pay2 x w a)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hA | exact hC)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [View.read_writes_eq_canon _ _ _ (fun y => ⟨_, List.mem_cons_self .., View.mem_set_unit_zero zero2' inb_S1024x1024_S1024x1024_0_0 y⟩),
      View.canon_cons_unit_zero zero2']
    simp only [View.readAt_eq_ld, View.ld_unit_zero (S := S1024x512) zero2', View.ld_unit_zero (S := S1024x1024) zero2',
      View.ld_unit_zero (S := S1x1024) zero2', View.readCov_unit_zero (S := S1024x1024) _ zero2']
  iexists _; isplitr
  swap; · iexact H7
  ipureintro
  try sl_unfold_words
  rw [View.read_writes_eq_canon _ _ _ (fun y => ⟨_, List.mem_cons_self .., View.mem_set_unit_zero zero2' inb_S1024x1024_S1024x1024_0_0 y⟩),
    View.canon_cons_unit_zero zero2']
  simp only [View.readAt_eq_ld, View.ld_unit_zero (S := S1024x512) zero2', View.ld_unit_zero (S := S1024x1024) zero2',
    View.ld_unit_zero (S := S1x1024) zero2', View.readCov_unit_zero (S := S1024x1024) _ zero2']

/-! ## The invariant, opened at the accumulator -/

/-- The accumulator at anything. -/
abbrev accAny (c : Dev nD) : sProp 𝕄 := iprop(∃ d, owns (c : Thread nD τ) scM fullShare d)

/-- The accumulator's slot of the invariant can be taken out and any other contents put back. -/
theorem restWith_frame (c : Dev nD) (S S' : sProp 𝕄) : restWith c S ⊢ iprop(S ∗ (S' -∗ restWith c S')) := by
  unfold restWith
  iintro ⟨⟨H1, H2, H3, H4, H5, H6, H7, H8, HS⟩, Hg⟩
  isplitl [HS]; · iexact HS
  iintro HS'
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS'
  · iexact Hg

/-- What the launch hands a region — every scoped buffer it does not stage at anything, and the generator register —
    is the invariant with the accumulator at anything. -/
theorem PhiA1_eq (c : Dev nD) :
    (Pipeline.ΦA spec1 c : sProp 𝕄) = restWith c (accAny c) := by
  unfold Pipeline.ΦA restWith; rw [scopedRest1_eq]; simp only [accAny, scM, owns_whole]; try rfl

/-- Before the first point the invariant is what the launch hands the region. -/
theorem Phi1_in (c : Dev nD) : (dat1 V c).Φ 0 = Pipeline.ΦA spec1 c := rfl

/-- After the last point the invariant gives that back: the accumulator's named contents are forgotten. -/
theorem Phi1_out (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro H
  ihave HX := (restWith_frame c _ (accAny c)) $$ H
  icases HX with ⟨HS, Hback⟩
  iapply Hback
  iexists _; iexact HS

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]

set_option maxHeartbeats 2000000 in
/-- The body at any point: the inputs' memrefs hold their blocks; `t % 8` says which case the point is in; the invariant
    hands the body the accumulator at what the point before left (at anything at the first point) and takes it back at
    this point's contents; where `k ≠ 7` the output's buffer is handed back untouched, where `k = 7` it holds the
    accumulator plus the bias row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 8 = 0
  · have h7 : ¬t.val % 8 = 7 := by omega
    have hA : condA (grid1.coords t) := (hcondA t).mpr h0
    have hC : ¬condC (grid1.coords t) := fun h => h7 ((hcondC t).mp h)
    rw [Dat.leavesExact_idle (dat1 V c) 3 t (idleAt1_3 t hC) (noFlush1_3 t hC), accAt_first V c t h0]
    have hΦ : (dat1 V c).Φ t.castSucc ⊢ restWith c (accAny c) := by
      rw [Phi1_castSucc V c t]
      by_cases hz : t.val = 0
      · rw [PhiS_zero V c _ _ hz, PhiA1_eq]
      · rw [PhiS_pos V c _ _ hz]
        iintro H
        ihave HX := (restWith_frame c _ (accAny c)) $$ H
        icases HX with ⟨HS, Hback⟩
        iapply Hback
        iexists _; iexact HS
    iintro ⟨HΦ, Ho, ⟨%d0, H0⟩, ⟨%d1, H1⟩, ⟨%d2, H2⟩, H3⟩
    ihave HΦ' := hΦ $$ HΦ
    ihave HX := (restWith_frame c _ (owns (c : Thread nD τ) scM fullShare
      (k1_pay2 (iblk1 V c 0 t) (iblk1 V c 1 t) (k1_pay1 (F := F))))) $$ HΦ'
    icases HX with ⟨HS, Hback⟩
    iapply (run1_A c Set.univ (grid1.coords t) hA hC _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS Hback]
    · iapply Hback; iexact HS
    isplitl [Ho]; · iexact Ho
    isplitl [H0]; · iexact H0
    isplitl [H1]; · iexact H1
    isplitl [H2]; · iexact H2
    iexact H3
  · have hz : t.val ≠ 0 := fun e => h0 (by rw [e])
    have hA : ¬condA (grid1.coords t) := fun h => h0 ((hcondA t).mp h)
    rw [Phi1_castSucc V c t, PhiS_pos V c _ _ hz, accAt_next V c t h0]
    by_cases h7 : t.val % 8 = 7
    · have hC : condC (grid1.coords t) := (hcondC t).mpr h7
      rw [show (dat1 V c).leavesExact 3 t = owns (c : Thread nD τ) (st1_3 t) fullShare ((dat1 V c).after 3 t) from by
        unfold Dat.leavesExact; rw [liveAt1_3 t hC], after1_3, accAt_next V c t h0]
      unfold out1_3
      iintro ⟨HΦ, Ho, ⟨%d0, H0⟩, ⟨%d1, H1⟩, ⟨%d2, H2⟩, ⟨%d3, H3⟩⟩
      ihave HX := (restWith_frame c _ (owns (c : Thread nD τ) scM fullShare
        (k1_pay2 (iblk1 V c 0 t) (iblk1 V c 1 t) (accAt V c (t.val - 1) (Nat.lt_of_le_of_lt (Nat.sub_le _ _) t.isLt))))) $$ HΦ
      icases HX with ⟨HS, Hback⟩
      iapply (run1_C c Set.univ (grid1.coords t) hA hC _ _ _ _ _ _ _ _ _ _ (iblk1 V c 0 t) (iblk1 V c 1 t) (iblk1 V c 2 t)
        (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hback]
      · iapply Hback; iexact HS
      isplitl [Ho]; · iexact Ho
      isplitl [H0]; · iexact H0
      isplitl [H1]; · iexact H1
      isplitl [H2]; · iexact H2
      iexact H3
    · have hC : ¬condC (grid1.coords t) := fun h => h7 ((hcondC t).mp h)
      rw [Dat.leavesExact_idle (dat1 V c) 3 t (idleAt1_3 t hC) (noFlush1_3 t hC)]
      iintro ⟨HΦ, Ho, ⟨%d0, H0⟩, ⟨%d1, H1⟩, ⟨%d2, H2⟩, H3⟩
      ihave HX := (restWith_frame c _ (owns (c : Thread nD τ) scM fullShare
        (k1_pay2 (iblk1 V c 0 t) (iblk1 V c 1 t) (accAt V c (t.val - 1) (Nat.lt_of_le_of_lt (Nat.sub_le _ _) t.isLt))))) $$ HΦ
      icases HX with ⟨HS, Hback⟩
      iapply (run1_B c Set.univ (grid1.coords t) hA hC _ _ _ _ _ _ _ _ _ _ (iblk1 V c 0 t) (iblk1 V c 1 t)
        (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback]
      · iapply Hback; iexact HS
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Chain.lean ====
/-
  The buffer contents at each boundary of @main, folded from the launch memory:
  the three reshapes of the arguments; region 0, which leaves its arrays at what its write-backs fold to and touches
  nothing else; region 1, the same; the closing reshape of the result. No step writes an argument, so each argument's
  buffer walks back through the fold to its launch contents.
-/
import proofs.«401016_j1958505087322_2_alg».proof.Proof.Data0
import proofs.«401016_j1958505087322_2_alg».proof.Proof.Data1
import proofs.«401016_j1958505087322_2_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- Core `c`'s buffers at launch. -/
abbrev W0 : Dev nD → Valuation τ sig (Elt F) := fun c => Gen.V0 m c
/-- After the three reshapes (region 0's entry). -/
abbrev W1 : Dev nD → Valuation τ sig (Elt F) := fun c => Gen.V1 m c
/-- The same read at the TensorCore's references. -/
abbrev E1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 1's entry: no host operation stands between the regions). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the closing reshape: what @main returns with. -/
abbrev W4 : Dev nD → Valuation τ sig (Elt F) := fun c => StableHlo.after hostOps2 (W3 m c)

theorem W4_of (c : Dev nD) (r : Ref sig .tc) (h : r ∉ hostOps2_W) : W4 m c r = W3 m c r :=
  StableHlo.after_of_writes_sub hostOps2 _ hostOps2_writes h

/-! ### The arguments end as launched -/

theorem W4_main_arg0 (c : Dev nD) : W4 m c (Proc.devRef .tc main_arg0) = m ((c : Thread nD τ).loc main_arg0) :=
  (W4_of m c main_arg0 (by decide)).trans <| (W3_of_ne m c main_arg0 (by decide)).trans <|
    (W2_of_ne m c main_arg0 (by decide)).trans <| (Gen.V1_of m c main_arg0 (by decide)).trans rfl
theorem W4_main_arg3 (c : Dev nD) : W4 m c (Proc.devRef .tc main_arg3) = m ((c : Thread nD τ).loc main_arg3) :=
  (W4_of m c main_arg3 (by decide)).trans <| (W3_of_ne m c main_arg3 (by decide)).trans <|
    (W2_of_ne m c main_arg3 (by decide)).trans <| (Gen.V1_of m c main_arg3 (by decide)).trans rfl
theorem W4_main_arg4 (c : Dev nD) : W4 m c (Proc.devRef .tc main_arg4) = m ((c : Thread nD τ).loc main_arg4) :=
  (W4_of m c main_arg4 (by decide)).trans <| (W3_of_ne m c main_arg4 (by decide)).trans <|
    (W2_of_ne m c main_arg4 (by decide)).trans <| (Gen.V1_of m c main_arg4 (by decide)).trans rfl
/-- The scales are region 0's window 1, an input: the pipeline leaves an input's array as it found it. -/
theorem W4_main_arg1 (c : Dev nD) : W4 m c (Proc.devRef .tc main_arg1) = m ((c : Thread nD τ).loc main_arg1) :=
  (W4_of m c main_arg1 (by decide)).trans <| (W3_of_ne m c main_arg1 (by decide)).trans <|
    ((W2_arr m c 1).trans (((dat0 (E1 m) c).arrAt_in 1 rfl _).trans (A_eq0 (E1 m) c 1))).trans <|
      (Gen.V1_of m c main_arg1 (by decide)).trans rfl
/-- The zero points are region 0's window 2, an input. -/
theorem W4_main_arg2 (c : Dev nD) : W4 m c (Proc.devRef .tc main_arg2) = m ((c : Thread nD τ).loc main_arg2) :=
  (W4_of m c main_arg2 (by decide)).trans <| (W3_of_ne m c main_arg2 (by decide)).trans <|
    ((W2_arr m c 2).trans (((dat0 (E1 m) c).arrAt_in 2 rfl _).trans (A_eq0 (E1 m) c 2))).trans <|
      (Gen.V1_of m c main_arg2 (by decide)).trans rfl

end Cert.KernelIdeal.Hand

end
-- ==== Proof.Run.lean ====
/-
  @main from the launch to the return: the three reshapes, region 0, region 1, the closing reshape, as four segments
  whose thread state is "every buffer that outlives the regions at the boundary's contents, the generator register at
  some state, nothing owed". Each region takes its arrays out of those buffers and puts them back at what its
  write-backs leave; region 1's accumulator lives in its invariant only. Every weakly fair execution terminates, and
  the final memory holds each such buffer at the last boundary's contents.
-/
import proofs.«401016_j1958505087322_2_alg».proof.Proof.Body0
import proofs.«401016_j1958505087322_2_alg».proof.Proof.Body1
import proofs.«401016_j1958505087322_2_alg».proof.Proof.Chain
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that outlives the regions is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every buffer at the contents after the reshapes, left with its arrays at what its
    write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left (no host operation stands between them), left with its arrays at what
    its write-backs leave. The accumulator enters its invariant at anything and leaves it at anything. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) Gen.adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) :=
  Gen.main_segs Gen.adm (pdats m) () 𝒱₀ L lv _ _ (reg0 m) (reg1 m) rfl rfl c

set_option backward.isDefEq.respectTransparency.types false in
/-- From any memory with zero counters every weakly fair execution of @main terminates, nothing faulting, and the final
    memory holds every buffer that outlives the regions at the contents the fold through @main computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.Spec.lean ====
/-
  The mathematics of the int4 group-quantised linear layer, stated once, index by index, over the extended reals.

  A packed word holds eight 4-bit fields; field `s` of word `x` is `(x >>ₐ 4·s) &&& 15`, read as a signed integer
  and then as a real (`nib`). Row `o` of the weight matrix has 512 words, so column `i` of that row is field `i % 8`
  of word `i / 8`; columns are grouped by 128 and group `i / 128` of row `o` has its own scale and zero point:
  `Wdeq o i = scale o (i/128) · (nib (P o (i/8)) (i%8) − zero o (i/128))`.
  The layer is `Out r o = (∑ k, X r k · W o k) + b o`.
-/
import Idealize.ShloMosaic.PureOps.Ideal
import Idealize.ShloMosaic.Lib.ValueIdx

noncomputable section

namespace Cert.Spec

open Idealize.ShloMosaic Idealize.ShloMosaic.ValueIdx

/-- The shift amount of field `s`: the word `s · 4`. -/
def shamt (s : Fin 8) : BitVec 32 := IntOp.muli (BitVec.ofNat 32 s.val) 4#32

/-- Field `s` of the packed word `x` as an integer word: arithmetic shift right by `4·s`, then the low four bits. -/
def field (x : BitVec 32) (s : Fin 8) : BitVec 32 := IntOp.andi (IntOp.shrsi .vector x (shamt s)) 15#32

/-- Field `s` of the packed word `x` as an extended real. -/
def nib (x : BitVec 32) (s : Fin 8) : EReal := FloatOps.sitofp (F := Ideal) .f32 (field x s)

/-- Every shift amount is below the word width, where the arithmetic shift does not depend on which unit performs it. -/
theorem shamt_lt (s : Fin 8) : (shamt s).toNat < 32 := by
  revert s; decide

/-- The host's arithmetic shift by a field's amount is the vector unit's. -/
theorem shrsi_host_shamt (x : BitVec 32) (s : Fin 8) : IntOp.shrsi .host x (shamt s) = IntOp.shrsi .vector x (shamt s) := by
  unfold IntOp.shrsi; rw [if_pos (shamt_lt s), if_pos (shamt_lt s)]

theorem div128_lt {i : Nat} (h : i < 4096) : i / 128 < 32 := by omega
theorem div8_lt {i : Nat} (h : i < 4096) : i / 8 < 512 := by omega
theorem mod8_lt (i : Nat) : i % 8 < 8 := Nat.mod_lt _ (by decide)

/-- The dequantised weight matrix: entry `(o, i)` from word `i / 8` of row `o`, field `i % 8`, and group `i / 128`'s
    scale and zero point. -/
def Wdeq (P : (⟨2, ![4096, 512]⟩ : Shape).Idx → BitVec 32) (sc zr : (⟨2, ![4096, 32]⟩ : Shape).Idx → EReal) :
    (⟨2, ![4096, 4096]⟩ : Shape).Idx → EReal := fun j =>
  sc (ix2 (j 0) ⟨(j 1).val / 128, div128_lt (j 1).isLt⟩)
    * (nib (P (ix2 (j 0) ⟨(j 1).val / 8, div8_lt (j 1).isLt⟩)) ⟨(j 1).val % 8, mod8_lt _⟩
        - zr (ix2 (j 0) ⟨(j 1).val / 128, div128_lt (j 1).isLt⟩))

/-- The layer's output on flattened rows: `X · Wᵀ + b`. -/
def Out (X : (⟨2, ![8192, 4096]⟩ : Shape).Idx → EReal) (W : (⟨2, ![4096, 4096]⟩ : Shape).Idx → EReal)
    (b : (⟨2, ![1, 4096]⟩ : Shape).Idx → EReal) : (⟨2, ![8192, 4096]⟩ : Shape).Idx → EReal := fun j =>
  (∑ k : Fin 4096, X (ix2 (j 0) k) * W (ix2 (j 1) k)) + b (ix2 0 (j 1))

theorem row_lt {a b : Nat} (ha : a < 4) (hb : b < 2048) : a * 2048 + b < 8192 := by omega
theorem div2048_lt {i : Nat} (h : i < 8192) : i / 2048 < 4 := by omega
theorem word_lt {o j : Nat} (ho : o < 4096) (hj : j < 512) : o * 512 + j < 2097152 := by omega

/-- Rows flattened: batch `a`, position `b` is row `a · 2048 + b`. -/
def X2 (x : (⟨3, ![4, 2048, 4096]⟩ : Shape).Idx → EReal) : (⟨2, ![8192, 4096]⟩ : Shape).Idx → EReal := fun j =>
  x (ix3 ⟨(j 0).val / 2048, div2048_lt (j 0).isLt⟩ ⟨(j 0).val % 2048, Nat.mod_lt _ (by decide)⟩ (j 1))

/-- The packed words as a matrix: word `j` of row `o` is word `o · 512 + j` of the flat array. -/
def P2 (p : (⟨1, ![2097152]⟩ : Shape).Idx → BitVec 32) : (⟨2, ![4096, 512]⟩ : Shape).Idx → BitVec 32 := fun j =>
  p (ix1 ⟨(j 0).val * 512 + (j 1).val, word_lt (j 0).isLt (j 1).isLt⟩)

/-- The bias as a one-row matrix. -/
def B2 (b : (⟨1, ![4096]⟩ : Shape).Idx → EReal) : (⟨2, ![1, 4096]⟩ : Shape).Idx → EReal := fun j => b (ix1 (j 1))

/-- The whole layer from the five argument arrays, on the three-axis output: entry `(a, b, o)` is row `a · 2048 + b`,
    column `o` of `Out`. -/
def Layer (x : (⟨3, ![4, 2048, 4096]⟩ : Shape).Idx → EReal) (sc zr : (⟨2, ![4096, 32]⟩ : Shape).Idx → EReal)
    (b : (⟨1, ![4096]⟩ : Shape).Idx → EReal) (p : (⟨1, ![2097152]⟩ : Shape).Idx → BitVec 32) :
    (⟨3, ![4, 2048, 4096]⟩ : Shape).Idx → EReal := fun j =>
  Out (X2 x) (Wdeq (P2 p) sc zr) (B2 b) (ix2 ⟨(j 0).val * 2048 + (j 1).val, row_lt (j 0).isLt (j 1).isLt⟩ (j 2))

end Cert.Spec

end
-- ==== Proof.Val0.lean ====
/-
  Region 0's result array is the dequantised weight matrix.
-/
import proofs.«401016_j1958505087322_2_alg».proof.Proof.Data0
import proofs.«401016_j1958505087322_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A group's scalar, spread over its 128 columns: the 32×32 block viewed 32×32×1, repeated 128 times along the new
    axis and flattened to 32×4096, reads at `(p, q)` the block's entry `(p, q / 128)`. -/
theorem group_spread_apply (x : FVec Ideal S32x32 .f32) (p : Fin 32) (q : Fin 4096) :
    shapeCast S32x4096
        (broadcastTo S32x32x128 (shapeCast S32x32x1 (shapeCast S32x32x1 x shapeCasts_S32x32_S32x32x1) shapeCasts_S32x32x1_S32x32x1)
          broadcasts_S32x32x1_S32x32x128)
        shapeCasts_S32x32x128_S32x4096 (ix2 p q)
      = x (ix2 p ⟨q.val / 128, Cert.Spec.div128_lt q.isLt⟩) := by
  have hq : q.val < 4096 := q.isLt
  have hp : p.val < 32 := p.isLt
  refine (shapeCast_apply _ shapeCasts_S32x32x128_S32x4096 (ix2 p q)
    (ix3 p (⟨q.val / 128, by omega⟩ : Fin 32) (⟨q.val % 128, by omega⟩ : Fin 128)) ?_).trans ?_
  · rw [Shape.rowMajor_val_three, Shape.rowMajor_val_two]
    show (p.val * 32 + q.val / 128) * 128 + q.val % 128 = p.val * 4096 + q.val
    omega
  refine (broadcastTo_apply _ broadcasts_S32x32x1_S32x32x128 _
    (ix3 p (⟨q.val / 128, by omega⟩ : Fin 32) (0 : Fin 1)) (fun a => ?_)).trans ?_
  · match a with
    | ⟨0, _⟩ => rfl
    | ⟨1, _⟩ => rfl
    | ⟨2, _⟩ => rfl
  rw [shapeCast_self]
  refine (shapeCast_apply _ shapeCasts_S32x32_S32x32x1 _ (ix2 p (⟨q.val / 128, by omega⟩ : Fin 32)) ?_).trans rfl
  rw [Shape.rowMajor_val_three, Shape.rowMajor_val_two]
  show p.val * 32 + q.val / 128 = (p.val * 32 + q.val / 128) * 1 + 0
  omega

/-- The eight fields of every word: the 32×512 block viewed 32×512×1, repeated 8 times along the new axis, shifted right
    by four times the position on that axis, masked to four bits and flattened to 32×4096, reads at `(p, q)` field `q % 8`
    of the block's word `(p, q / 8)`. -/
theorem fields_apply (x : IVec S32x512 32) (p : Fin 32) (q : Fin 4096) :
    shapeCast S32x4096
        (andi
          (shrsi
            (broadcastTo S32x512x8 (shapeCast S32x512x1 (shapeCast S32x512 x shapeCasts_S32x512_S32x512) shapeCasts_S32x512_S32x512x1)
              broadcasts_S32x512x1_S32x512x8)
            (broadcastTo S32x512x8 (muli (iota .tc S1x1x8 32 [2] iota_S1x1x8_d2_w32) (broadcast S1x1x8 4#32)) broadcasts_S1x1x8_S32x512x8))
          (broadcast S32x512x8 15#32))
        shapeCasts_S32x512x8_S32x4096 (ix2 p q)
      = Cert.Spec.field (x (ix2 p ⟨q.val / 8, Cert.Spec.div8_lt q.isLt⟩)) ⟨q.val % 8, Cert.Spec.mod8_lt _⟩ := by
  have hq : q.val < 4096 := q.isLt
  have hp : p.val < 32 := p.isLt
  refine (shapeCast_apply _ shapeCasts_S32x512x8_S32x4096 (ix2 p q)
    (ix3 p (⟨q.val / 8, by omega⟩ : Fin 512) (⟨q.val % 8, by omega⟩ : Fin 8)) ?_).trans ?_
  · rw [Shape.rowMajor_val_three, Shape.rowMajor_val_two]
    show (p.val * 512 + q.val / 8) * 8 + q.val % 8 = p.val * 4096 + q.val
    omega
  show IntOp.andi (IntOp.shrsi .vector
      (broadcastTo S32x512x8 (shapeCast S32x512x1 (shapeCast S32x512 x shapeCasts_S32x512_S32x512) shapeCasts_S32x512_S32x512x1)
        broadcasts_S32x512x1_S32x512x8 (ix3 p (⟨q.val / 8, by omega⟩ : Fin 512) (⟨q.val % 8, by omega⟩ : Fin 8)))
      (broadcastTo S32x512x8 (muli (iota .tc S1x1x8 32 [2] iota_S1x1x8_d2_w32) (broadcast S1x1x8 4#32)) broadcasts_S1x1x8_S32x512x8
        (ix3 p (⟨q.val / 8, by omega⟩ : Fin 512) (⟨q.val % 8, by omega⟩ : Fin 8)))) 15#32
    = IntOp.andi (IntOp.shrsi .vector (x (ix2 p ⟨q.val / 8, Cert.Spec.div8_lt q.isLt⟩)) (Cert.Spec.shamt ⟨q.val % 8, Cert.Spec.mod8_lt _⟩)) 15#32
  have hword : broadcastTo S32x512x8 (shapeCast S32x512x1 (shapeCast S32x512 x shapeCasts_S32x512_S32x512) shapeCasts_S32x512_S32x512x1)
        broadcasts_S32x512x1_S32x512x8 (ix3 p (⟨q.val / 8, by omega⟩ : Fin 512) (⟨q.val % 8, by omega⟩ : Fin 8))
      = x (ix2 p ⟨q.val / 8, Cert.Spec.div8_lt q.isLt⟩) := by
    refine (broadcastTo_apply _ broadcasts_S32x512x1_S32x512x8 _
      (ix3 p (⟨q.val / 8, by omega⟩ : Fin 512) (0 : Fin 1)) (fun a => ?_)).trans ?_
    · match a with
      | ⟨0, _⟩ => rfl
      | ⟨1, _⟩ => rfl
      | ⟨2, _⟩ => rfl
    rw [shapeCast_self]
    refine (shapeCast_apply _ shapeCasts_S32x512_S32x512x1 _ (ix2 p (⟨q.val / 8, by omega⟩ : Fin 512)) ?_).trans rfl
    rw [Shape.rowMajor_val_three, Shape.rowMajor_val_two]
    show p.val * 512 + q.val / 8 = (p.val * 512 + q.val / 8) * 1 + 0
    omega
  have hshift : broadcastTo S32x512x8 (muli (iota .tc S1x1x8 32 [2] iota_S1x1x8_d2_w32) (broadcast S1x1x8 4#32)) broadcasts_S1x1x8_S32x512x8
        (ix3 p (⟨q.val / 8, by omega⟩ : Fin 512) (⟨q.val % 8, by omega⟩ : Fin 8))
      = Cert.Spec.shamt ⟨q.val % 8, Cert.Spec.mod8_lt _⟩ := by
    refine (broadcastTo_apply _ broadcasts_S1x1x8_S32x512x8 _
      (ix3 (0 : Fin 1) (0 : Fin 1) (⟨q.val % 8, by omega⟩ : Fin 8)) (fun a => ?_)).trans ?_
    · match a with
      | ⟨0, _⟩ => rfl
      | ⟨1, _⟩ => rfl
      | ⟨2, _⟩ => rfl
    show IntOp.muli (iota .tc S1x1x8 32 [2] iota_S1x1x8_d2_w32 (ix3 (0 : Fin 1) (0 : Fin 1) (⟨q.val % 8, by omega⟩ : Fin 8))) 4#32 = _
    rw [iota_single_apply]
    rfl
  rw [hword, hshift]

/-- The body's arithmetic at one element: entry `(p, q)` of the output block is the row's group-`q / 128` scale times
    (field `q % 8` of word `q / 8` of the row, as a real, minus the group's zero point). -/
theorem pay_apply (x0 : Vec Ideal S32x512 .i32) (x1 x2 : Vec Ideal S32x32 .f32) (p : Fin 32) (q : Fin 4096) :
    k0_pay1 (F := Ideal) x0 x1 x2 (ix2 p q)
      = x1 (ix2 p ⟨q.val / 128, Cert.Spec.div128_lt q.isLt⟩)
        * (Cert.Spec.nib (x0 (ix2 p ⟨q.val / 8, Cert.Spec.div8_lt q.isLt⟩)) ⟨q.val % 8, Cert.Spec.mod8_lt _⟩
            - x2 (ix2 p ⟨q.val / 128, Cert.Spec.div128_lt q.isLt⟩)) := by
  unfold k0_pay1
  rw [truncf_apply, mulf_apply, subf_apply, sitofp_apply, group_spread_apply x1 p q, group_spread_apply x2 p q, fields_apply x0 p q]
  rfl

variable (V : (c : Dev nD) → (b : Ref sig .tc) → Buf (Elt Ideal) ((c : Thread nD τ).loc b))

/-- The four index maps, decided once over the 128 points: at point `t` every window sits at block `(t, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The packed words' block at point `t`: its entry `(p, g)` is the array's entry `(32·t + p, g)`. -/
theorem words_blk_apply (c : Dev nD) (t : Fin cfg0.N) (p : Fin 32) (g : Fin 512) (r : Fin 4096)
    (hr : r.val = t.val * 32 + p.val) : iblk0 V c 0 t (ix2 p g) = V c main_v1 (ix2 r g) := by
  obtain ⟨a0, a1, -⟩ := idx_facts0 t
  show V c main_v1 (((cfg0.win 0).blk t).view.emb (ix2 p g)) = _
  refine congrArg _ (funext fun a => Fin.ext ?_)
  match a with
  | ⟨0, _⟩ => show win0_0.index t (0 : Fin 2) * 32 + 1 * p.val = r.val; rw [a0]; omega
  | ⟨1, _⟩ => show win0_0.index t (1 : Fin 2) * 512 + 1 * g.val = g.val; rw [a1]; omega

/-- The scales' block at point `t`: its entry `(p, g)` is the array's entry `(32·t + p, g)`. -/
theorem scales_blk_apply (c : Dev nD) (t : Fin cfg0.N) (p : Fin 32) (g : Fin 32) (r : Fin 4096)
    (hr : r.val = t.val * 32 + p.val) : iblk0 V c 1 t (ix2 p g) = V c main_arg1 (ix2 r g) := by
  obtain ⟨-, -, b0, b1, -⟩ := idx_facts0 t
  show V c main_arg1 (((cfg0.win 1).blk t).view.emb (ix2 p g)) = _
  refine congrArg _ (funext fun a => Fin.ext ?_)
  match a with
  | ⟨0, _⟩ => show win0_1.index t (0 : Fin 2) * 32 + 1 * p.val = r.val; rw [b0]; omega
  | ⟨1, _⟩ => show win0_1.index t (1 : Fin 2) * 32 + 1 * g.val = g.val; rw [b1]; omega

/-- The zero points' block at point `t`: its entry `(p, g)` is the array's entry `(32·t + p, g)`. -/
theorem zeros_blk_apply (c : Dev nD) (t : Fin cfg0.N) (p : Fin 32) (g : Fin 32) (r : Fin 4096)
    (hr : r.val = t.val * 32 + p.val) : iblk0 V c 2 t (ix2 p g) = V c main_arg2 (ix2 r g) := by
  obtain ⟨-, -, -, -, c0, c1, -⟩ := idx_facts0 t
  show V c main_arg2 (((cfg0.win 2).blk t).view.emb (ix2 p g)) = _
  refine congrArg _ (funext fun a => Fin.ext ?_)
  match a with
  | ⟨0, _⟩ => show win0_2.index t (0 : Fin 2) * 32 + 1 * p.val = r.val; rw [c0]; omega
  | ⟨1, _⟩ => show win0_2.index t (1 : Fin 2) * 32 + 1 * g.val = g.val; rw [c1]; omega

/-- The dequantised matrix at an index whose coordinates are `r` and `q`. -/
theorem Wdeq_at (P : (⟨2, ![4096, 512]⟩ : Shape).Idx → BitVec 32) (sc zr : (⟨2, ![4096, 32]⟩ : Shape).Idx → EReal)
    (e : (⟨2, ![4096, 4096]⟩ : Shape).Idx) (r q : Fin 4096) (h0 : (e 0).val = r.val) (h1 : (e 1).val = q.val) :
    Cert.Spec.Wdeq P sc zr e
      = sc (ix2 r ⟨q.val / 128, Cert.Spec.div128_lt q.isLt⟩)
        * (Cert.Spec.nib (P (ix2 r ⟨q.val / 8, Cert.Spec.div8_lt q.isLt⟩)) ⟨q.val % 8, Cert.Spec.mod8_lt _⟩
            - zr (ix2 r ⟨q.val / 128, Cert.Spec.div128_lt q.isLt⟩)) := by
  obtain rfl : e = ix2 r q := by
    funext a
    match a with
    | ⟨0, _⟩ => exact Fin.ext h0
    | ⟨1, _⟩ => exact Fin.ext h1
  rfl

/-- What point `t` writes back is rows `32·t … 32·t+31` of the dequantised weight matrix. -/
theorem flushed0_eq (c : Dev nD) (t : Fin cfg0.N) :
    (dat0 (F := Ideal) V c).flushed 3 t
      = ((cfg0.win 3).blk t).view.read (Elt Ideal) (Cert.Spec.Wdeq (V c main_v1) (V c main_arg1) (V c main_arg2)) := by
  show (cfg0.win 3).cut (grid0.coords t) ((dat0 (F := Ideal) V c).after 3 t) = _
  rw [after0_3]
  obtain ⟨-, -, -, -, -, -, d0, d1⟩ := idx_facts0 t
  have ht : t.val < 128 := t.isLt
  funext j
  have hp : (j 0).val < 32 := (j 0).isLt
  have hq : (j 1).val < 4096 := (j 1).isLt
  have hL : (cfg0.win 3).cut (grid0.coords t) (out0_3 (iblk0 V c 0 t) (iblk0 V c 1 t) (iblk0 V c 2 t)) j
      = k0_pay1 (F := Ideal) (iblk0 V c 0 t) (iblk0 V c 1 t) (iblk0 V c 2 t) (ix2 (⟨(j 0).val, hp⟩ : Fin 32) (⟨(j 1).val, hq⟩ : Fin 4096)) := by
    show k0_pay1 (F := Ideal) (iblk0 V c 0 t) (iblk0 V c 1 t) (iblk0 V c 2 t) _ = _
    refine congrArg _ (funext fun a => ?_)
    match a with
    | ⟨0, _⟩ => rfl
    | ⟨1, _⟩ => rfl
  have hR : ((cfg0.win 3).blk t).view.read (Elt Ideal) (Cert.Spec.Wdeq (V c main_v1) (V c main_arg1) (V c main_arg2)) j
      = Cert.Spec.Wdeq (V c main_v1) (V c main_arg1) (V c main_arg2) (((cfg0.win 3).blk t).view.emb j) := rfl
  rw [hL, pay_apply, hR,
    Wdeq_at (V c main_v1) (V c main_arg1) (V c main_arg2) (((cfg0.win 3).blk t).view.emb j)
      (⟨t.val * 32 + (j 0).val, by omega⟩ : Fin 4096) (⟨(j 1).val, hq⟩ : Fin 4096)
      (by show win0_3.index t (0 : Fin 2) * 32 + 1 * (j 0).val = t.val * 32 + (j 0).val; rw [d0]; omega)
      (by show win0_3.index t (1 : Fin 2) * 4096 + 1 * (j 1).val = (j 1).val; rw [d1]; omega),
    words_blk_apply V c t (⟨(j 0).val, hp⟩ : Fin 32) _ (⟨t.val * 32 + (j 0).val, by omega⟩ : Fin 4096) rfl,
    scales_blk_apply V c t (⟨(j 0).val, hp⟩ : Fin 32) _ (⟨t.val * 32 + (j 0).val, by omega⟩ : Fin 4096) rfl,
    zeros_blk_apply V c t (⟨(j 0).val, hp⟩ : Fin 32) _ (⟨t.val * 32 + (j 0).val, by omega⟩ : Fin 4096) rfl]

/-- An index of the output array is in point `t`'s block iff each coordinate is in the block's range on its axis. -/
theorem mem_blk0 (t : Fin cfg0.N) (i : S4096x4096.Idx) :
    i ∈ ((cfg0.win 3).blk t).view.set
      ↔ ∀ a : Fin 2, win0_3.index t a * S32x4096.size a ≤ (i a).val ∧ (i a).val < win0_3.index t a * S32x4096.size a + S32x4096.size a := by
  show i ∈ ((View.whole main_v3).slice (win0_3.rect t)).set ↔ _
  rw [View.set_slice_whole, Rect.mem_set_unit]
  exact Iff.rfl

/-- Row `r` of the output array lies in the block of point `r / 32`, which is written back: the 128 blocks cover the array. -/
theorem cover0 (i : S4096x4096.Idx) :
    ∃ t : Fin cfg0.N, (cfg0.win 3).flush t = true ∧ i ∈ ((cfg0.win 3).blk t).view.set := by
  have hN : cfg0.N = 128 := N_0
  have h0 : (i 0).val < 4096 := (i 0).isLt
  have h1 : (i 1).val < 4096 := (i 1).isLt
  obtain ⟨t, ht⟩ : ∃ t : Fin cfg0.N, t.val = (i 0).val / 32 := ⟨⟨(i 0).val / 32, by rw [hN]; omega⟩, rfl⟩
  obtain ⟨-, -, -, -, -, -, d0, d1⟩ := idx_facts0 t
  refine ⟨t, flush0_3 t, ?_⟩
  rw [mem_blk0]
  intro a
  match a with
  | ⟨0, _⟩ =>
    show win0_3.index t (0 : Fin 2) * 32 ≤ (i 0).val ∧ (i 0).val < win0_3.index t (0 : Fin 2) * 32 + 32
    rw [d0, ht]; omega
  | ⟨1, _⟩ =>
    show win0_3.index t (1 : Fin 2) * 4096 ≤ (i 1).val ∧ (i 1).val < win0_3.index t (1 : Fin 2) * 4096 + 4096
    rw [d1]; omega

/-- After region 0 its output array holds, at `(o, i)`, group `i / 128`'s scale times (field `i % 8` of word `i / 8` of
    row `o`, minus the group's zero point): every block the 128 points write back is that function's restriction, and
    the blocks cover the array. -/
theorem final0 (V : (c : Dev nD) → (b : Ref sig .tc) → Buf (Elt Ideal) ((c : Thread nD τ).loc b)) (c : Dev nD) :
    (dat0 (F := Ideal) V c).arrAt 3 cfg0.N = Cert.Spec.Wdeq (V c main_v1) (V c main_arg1) (V c main_arg2) :=
  (dat0 (F := Ideal) V c).arrAt_eq_of_cover 3 (Cert.Spec.Wdeq (V c main_v1) (V c main_arg1) (V c main_arg2))
    (fun t _ => flushed0_eq V c t) cover0

end Cert.KernelIdeal.Hand

end
-- ==== Proof.Val1.lean ====
/-
  Region 1's result array is the rows times the transposed weights, plus the bias.

  Point `t` of the 8 × 4 × 8 grid is `(i, j, k) = (t / 32, t / 8 % 4, t % 8)`. Its step adds to the accumulator, at entry
  `(p, q)`, the sum over `l < 512` of `X (1024 i + p, 512 k + l) · W (1024 j + q, 512 k + l)`; a point with `k = 0`
  starts from zero. So after the point with `k = 7` the accumulator holds the sum of eight such block sums, which is the
  sum over all 4096 columns (a sum over 4096 terms cut in eight runs of 512: only that addition of extended reals is
  commutative and associative). That point stores the accumulator plus the bias row, which is the layer's output on the
  block `(i, j)`, and these 32 blocks cover the output array.
-/
import proofs.«401016_j1958505087322_2_alg».proof.Proof.Data1
import proofs.«401016_j1958505087322_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A sum over 4096 columns is the sum over eight runs of 512 consecutive columns. -/
theorem sum_runs {M : Type*} [AddCommMonoid M] (g : ℕ → M) :
    ∑ s ∈ Finset.range 8, ∑ l : Fin 512, g (512 * s + l.val) = ∑ k : Fin 4096, g k.val := by
  rw [Finset.sum_range]
  have e : ∑ k : Fin 4096, g k.val = ∑ p : Fin 8 × Fin 512, g (finProdFinEquiv p).val :=
    (Equiv.sum_comp (finProdFinEquiv (m := 8) (n := 512)) (fun k => g k.val)).symm
  rw [e, Fintype.sum_prod_type]
  refine Finset.sum_congr rfl fun s _ => Finset.sum_congr rfl fun l _ => ?_
  congr 1
  show 512 * s.val + l.val = l.val + 512 * s.val
  omega

/-- The cleared accumulator is zero at every entry. -/
theorem pay1_apply (p q : Fin 1024) : (k1_pay1 (F := Ideal)) (ix2 p q) = 0 := by
  unfold k1_pay1
  rw [shapeCast_self]
  exact Ideal.ofBits_zero_f32

/-- The block product's operand places: at output entry `i` and contraction place `k` the rows' block is read at
    `(i 0, k)` and the weights' block at `(i 1, k)` — both operands are contracted along their columns. -/
theorem lhs_dot_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_dot_1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs_dot_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_dot_1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The point's step at an entry: the accumulator's entry plus the product of row `p` of the rows' block with row `q` of the
    weights' block, summed over the block's 512 columns. -/
theorem pay2_apply (x : Vec Ideal S1024x512 .f32) (w : Vec Ideal S1024x512 .bf16) (a : Vec Ideal S1024x1024 .f32) (p q : Fin 1024) :
    k1_pay2 x w a (ix2 p q) = a (ix2 p q) + ∑ l : Fin 512, x (ix2 p l) * w (ix2 q l) := by
  unfold k1_pay2
  rw [shapeCast_self, shapeCast_self, shapeCast_self]
  refine (addf_apply _ _ _).trans ?_
  congr 1
  refine (Ideal.matmul_constant_zero_apply dot_S1024x512_S1024x512_S1024x1024_1_1_0_0_n_n none (truncf .bf16 x bitsLt_bf16_f32) w (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]
  rfl

/-- The stored block at an entry: the accumulator's entry plus the bias at the entry's column. -/
theorem pay3_apply (a : Vec Ideal S1024x1024 .f32) (b : Vec Ideal S1x1024 .f32) (p q : Fin 1024) :
    k1_pay3 a b (ix2 p q) = a (ix2 p q) + b (ix2 0 q) := by
  unfold k1_pay3
  rw [shapeCast_self]
  refine (addf_apply _ _ _).trans ?_
  congr 1
  exact broadcastTo_apply b broadcasts_S1x1024_S1024x1024 (ix2 p q) (ix2 0 q) (fun a => by
    match a with
    | ⟨0, _⟩ => rfl
    | ⟨1, _⟩ => rfl)

/-- The index maps over the grid: point `t` has coordinates `(t / 32, t / 8 % 4, t % 8)`; the rows' block is
    `(i, k)`, the weights' `(j, k)`, the bias's `(0, j)` and the output's `(i, j)`. -/
theorem idx_facts1 : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- Entry `(r, k)` of the rows' array, for any two naturals: zero outside the array. -/
def xAt (X : (⟨2, ![8192, 4096]⟩ : Shape).Idx → EReal) (r k : ℕ) : EReal :=
  if h : r < 8192 ∧ k < 4096 then X (ix2 ⟨r, h.1⟩ ⟨k, h.2⟩) else 0

/-- Entry `(o, k)` of the weights' array, for any two naturals: zero outside the array. -/
def wAt (W : (⟨2, ![4096, 4096]⟩ : Shape).Idx → EReal) (o k : ℕ) : EReal :=
  if h : o < 4096 ∧ k < 4096 then W (ix2 ⟨o, h.1⟩ ⟨k, h.2⟩) else 0

/-- Entry `o` of the bias row, for any natural: zero outside it. -/
def bAt (B : (⟨2, ![1, 4096]⟩ : Shape).Idx → EReal) (o : ℕ) : EReal :=
  if h : o < 4096 then B (ix2 0 ⟨o, h⟩) else 0

section Region

variable (V : (c : Dev nD) → (b : Ref sig .tc) → Buf (Elt Ideal) ((c : Thread nD τ).loc b))

/-- The rows' block at point `t`: entry `(p, l)` is row `1024·(t/32) + p`, column `512·(t%8) + l` of the array. -/
theorem xblk_apply (c : Dev nD) (t : Fin cfg1.N) (p : Fin 1024) (l : Fin 512) :
    (iblk1 V c 0 t : Vec Ideal S1024x512 .f32) (ix2 p l)
      = xAt (V c main_v0) (1024 * (t.val / 32) + p.val) (512 * (t.val % 8) + l.val) := by
  have ht : t.val < 256 := lt_of_lt_of_eq t.isLt N_1
  obtain ⟨e0, e1, -⟩ := idx_facts1 t
  have hp := p.isLt
  have hl := l.isLt
  unfold xAt
  rw [dif_pos ⟨by omega, by omega⟩]
  show V c main_v0 (((cfg1.win 0).blk t).view.emb (ix2 p l)) = _
  refine congrArg (V c main_v0) (funext fun a => Fin.ext ?_)
  match a with
  | ⟨0, _⟩ => show win1_0.index t (0 : Fin 2) * 1024 + 1 * p.val = 1024 * (t.val / 32) + p.val; rw [e0]; omega
  | ⟨1, _⟩ => show win1_0.index t (1 : Fin 2) * 512 + 1 * l.val = 512 * (t.val % 8) + l.val; rw [e1]; omega

/-- The weights' block at point `t`: entry `(q, l)` is row `1024·(t/8%4) + q`, column `512·(t%8) + l` of the array. -/
theorem wblk_apply (c : Dev nD) (t : Fin cfg1.N) (q : Fin 1024) (l : Fin 512) :
    (iblk1 V c 1 t : Vec Ideal S1024x512 .bf16) (ix2 q l)
      = wAt (V c main_v3) (1024 * (t.val / 8 % 4) + q.val) (512 * (t.val % 8) + l.val) := by
  have ht : t.val < 256 := lt_of_lt_of_eq t.isLt N_1
  obtain ⟨-, -, e0, e1, -⟩ := idx_facts1 t
  have hq := q.isLt
  have hl := l.isLt
  unfold wAt
  rw [dif_pos ⟨by omega, by omega⟩]
  show V c main_v3 (((cfg1.win 1).blk t).view.emb (ix2 q l)) = _
  refine congrArg (V c main_v3) (funext fun a => Fin.ext ?_)
  match a with
  | ⟨0, _⟩ => show win1_1.index t (0 : Fin 2) * 1024 + 1 * q.val = 1024 * (t.val / 8 % 4) + q.val; rw [e0]; omega
  | ⟨1, _⟩ => show win1_1.index t (1 : Fin 2) * 512 + 1 * l.val = 512 * (t.val % 8) + l.val; rw [e1]; omega

/-- The bias's block at point `t`: entry `(0, q)` is entry `1024·(t/8%4) + q` of the row. -/
theorem bblk_apply (c : Dev nD) (t : Fin cfg1.N) (q : Fin 1024) :
    (iblk1 V c 2 t : Vec Ideal S1x1024 .f32) (ix2 0 q) = bAt (V c main_v2) (1024 * (t.val / 8 % 4) + q.val) := by
  have ht : t.val < 256 := lt_of_lt_of_eq t.isLt N_1
  obtain ⟨-, -, -, -, e0, e1, -⟩ := idx_facts1 t
  have hq := q.isLt
  unfold bAt
  rw [dif_pos (by omega)]
  show V c main_v2 (((cfg1.win 2).blk t).view.emb (ix2 0 q)) = _
  refine congrArg (V c main_v2) (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 1024 + 1 * q.val = 1024 * (t.val / 8 % 4) + q.val; rw [e1]; omega

/-- The product of the rows' block `(m / 4, s)` with the weights' block `(m % 4, s)` at entry `(p, q)`, summed over the
    block's 512 columns (`m` is the point's position among the 32 output blocks, `s` its column block). -/
def blockProd (X : (⟨2, ![8192, 4096]⟩ : Shape).Idx → EReal) (W : (⟨2, ![4096, 4096]⟩ : Shape).Idx → EReal) (m s : ℕ)
    (p q : Fin 1024) : EReal :=
  ∑ l : Fin 512, xAt X (1024 * (m / 4) + p.val) (512 * s + l.val) * wAt W (1024 * (m % 4) + q.val) (512 * s + l.val)

/-- The body's step at point `t`, at an entry: the accumulator's entry plus the point's block product there. -/
theorem step_apply (c : Dev nD) (t : Fin cfg1.N) (a : Vec Ideal S1024x1024 .f32) (p q : Fin 1024) :
    k1_pay2 (iblk1 V c 0 t) (iblk1 V c 1 t) a (ix2 p q)
      = a (ix2 p q) + blockProd (V c main_v0) (V c main_v3) (t.val / 8) (t.val % 8) p q := by
  refine (pay2_apply (iblk1 V c 0 t) (iblk1 V c 1 t) a p q).trans ?_
  congr 1
  unfold blockProd
  refine Finset.sum_congr rfl fun l _ => ?_
  have e1 : t.val / 8 / 4 = t.val / 32 := by omega
  rw [e1]
  exact congrArg₂ (· * ·) (xblk_apply V c t p l) (wblk_apply V c t q l)

/-- The accumulator after point `n`, at an entry, is the sum of the block products of the points of its run so far:
    column blocks `0 … n % 8` of output block `n / 8`. By induction on the point: a point with `k = 0` starts from
    zero, every other adds its product to what the point before left. -/
theorem acc_apply (c : Dev nD) : ∀ (n : ℕ) (hn : n < cfg1.N) (p q : Fin 1024),
    accAt V c n hn (ix2 p q) = ∑ s ∈ Finset.range (n % 8 + 1), blockProd (V c main_v0) (V c main_v3) (n / 8) s p q := by
  intro n
  induction n with
  | zero =>
    intro hn p q
    refine (congrFun (accAt_first V c ⟨0, hn⟩ rfl) (ix2 p q)).trans ?_
    refine (step_apply V c ⟨0, hn⟩ _ p q).trans ?_
    rw [pay1_apply, zero_add]
    show blockProd (V c main_v0) (V c main_v3) (0 / 8) 0 p q
      = ∑ s ∈ Finset.range 1, blockProd (V c main_v0) (V c main_v3) (0 / 8) s p q
    rw [Finset.sum_range_one]
  | succ n ih =>
    intro hn p q
    by_cases h : (n + 1) % 8 = 0
    · refine (congrFun (accAt_first V c ⟨n + 1, hn⟩ h) (ix2 p q)).trans ?_
      refine (step_apply V c ⟨n + 1, hn⟩ _ p q).trans ?_
      rw [pay1_apply, zero_add]
      show blockProd _ _ ((n + 1) / 8) ((n + 1) % 8) p q = _
      rw [h, zero_add, Finset.sum_range_one]
    · refine (congrFun (accAt_next V c ⟨n + 1, hn⟩ h) (ix2 p q)).trans ?_
      refine (step_apply V c ⟨n + 1, hn⟩ _ p q).trans ?_
      show accAt V c n _ (ix2 p q) + blockProd _ _ ((n + 1) / 8) ((n + 1) % 8) p q = _
      rw [ih (Nat.lt_of_succ_lt hn) p q]
      have e1 : (n + 1) / 8 = n / 8 := by omega
      have e2 : (n + 1) % 8 = n % 8 + 1 := by omega
      rw [e1, e2, Finset.sum_range_succ _ (n % 8 + 1)]

/-- The eight block products of a run add up to the product over all 4096 columns: row `r` of the rows against row `o`
    of the weights. Only that a sum over 4096 columns is the sum over eight runs of 512. -/
theorem sum_blockProd (X : (⟨2, ![8192, 4096]⟩ : Shape).Idx → EReal) (W : (⟨2, ![4096, 4096]⟩ : Shape).Idx → EReal) (m : ℕ)
    (p q : Fin 1024) (r : Fin 8192) (o : Fin 4096) (hr : r.val = 1024 * (m / 4) + p.val) (ho : o.val = 1024 * (m % 4) + q.val) :
    ∑ s ∈ Finset.range 8, blockProd X W m s p q = ∑ k : Fin 4096, X (ix2 r k) * W (ix2 o k) := by
  unfold blockProd
  refine (sum_runs fun k => xAt X (1024 * (m / 4) + p.val) k * wAt W (1024 * (m % 4) + q.val) k).trans ?_
  refine Finset.sum_congr rfl fun k _ => ?_
  have hx : xAt X r.val k.val = X (ix2 r k) := by unfold xAt; exact dif_pos ⟨r.isLt, k.isLt⟩
  have hw : wAt W o.val k.val = W (ix2 o k) := by unfold wAt; exact dif_pos ⟨o.isLt, k.isLt⟩
  rw [← hr, ← ho, hx, hw]

/-- The layer's output at row `r`, column `o`. -/
theorem Out_ix2 (X : (⟨2, ![8192, 4096]⟩ : Shape).Idx → EReal) (W : (⟨2, ![4096, 4096]⟩ : Shape).Idx → EReal)
    (B : (⟨2, ![1, 4096]⟩ : Shape).Idx → EReal) (r : Fin 8192) (o : Fin 4096) :
    Cert.Spec.Out X W B (ix2 r o) = (∑ k : Fin 4096, X (ix2 r k) * W (ix2 o k)) + B (ix2 0 o) := rfl

/-- What a point with `k = 7` stores into the output block, at entry `(p, q)`: the layer's output at the entry's place
    `i` in the array — the full product over the columns plus the bias at `i`'s column. -/
theorem out_apply (c : Dev nD) (t : Fin cfg1.N) (h7 : t.val % 8 = 7) (p q : Fin 1024) (i : (⟨2, ![8192, 4096]⟩ : Shape).Idx)
    (h0 : (i 0).val = 1024 * (t.val / 32) + p.val) (h1 : (i 1).val = 1024 * (t.val / 8 % 4) + q.val) :
    out1_3 (accAt V c t.val t.isLt) (iblk1 V c 2 t) (ix2 p q)
      = Cert.Spec.Out (V c main_v0) (V c main_v3) (V c main_v2) i := by
  obtain ⟨r, o, rfl⟩ : ∃ (r : Fin 8192) (o : Fin 4096), i = ix2 r o := ⟨i 0, i 1, eq_ix2 i⟩
  have h0' : r.val = 1024 * (t.val / 8 / 4) + p.val := by rw [show t.val / 8 / 4 = t.val / 32 by omega]; exact h0
  have h1' : o.val = 1024 * (t.val / 8 % 4) + q.val := h1
  have e8 : t.val % 8 + 1 = 8 := by omega
  unfold out1_3
  refine (pay3_apply _ _ p q).trans ?_
  rw [acc_apply V c t.val t.isLt p q, e8, sum_blockProd _ _ (t.val / 8) p q r o h0' h1']
  refine Eq.trans ?_ (Out_ix2 (V c main_v0) (V c main_v3) (V c main_v2) r o).symm
  congr 1
  refine (bblk_apply V c t q).trans ?_
  rw [← h1']
  unfold bAt
  exact dif_pos o.isLt

/-- What a point that writes its block back writes is its block of the layer's output. -/
theorem flushed1_eq (c : Dev nD) (t : Fin cfg1.N) (hf : (cfg1.win 3).flush t = true) :
    (dat1 V c).flushed 3 t
      = ((cfg1.win 3).blk t).view.read (Elt Ideal) (Cert.Spec.Out (V c main_v0) (V c main_v3) (V c main_v2)) := by
  have h7 : t.val % 8 = 7 := (flush1_3 t).mp hf
  obtain ⟨-, -, -, -, -, -, e0, e1⟩ := idx_facts1 t
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  show out1_3 (accAt V c t.val t.isLt) (iblk1 V c 2 t) (ix2 p q)
    = Cert.Spec.Out (V c main_v0) (V c main_v3) (V c main_v2) (((cfg1.win 3).blk t).view.emb (ix2 p q))
  refine out_apply V c t h7 p q _ ?_ ?_
  · show win1_3.index t (0 : Fin 2) * 1024 + 1 * p.val = _
    rw [e0]; omega
  · show win1_3.index t (1 : Fin 2) * 1024 + 1 * q.val = _
    rw [e1]; omega

/-- Every place of the output array is in the block of a point that writes back: row `r`, column `o` is in block
    `(r / 1024, o / 1024)`, written at that block's point with `k = 7`. -/
theorem cover1 (i : (⟨2, ![8192, 4096]⟩ : Shape).Idx) :
    ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 256 := N_1
  obtain ⟨t, htv⟩ : ∃ t : Fin cfg1.N, t.val = 32 * ((i 0).val / 1024) + 8 * ((i 1).val / 1024) + 7 :=
    ⟨⟨32 * ((i 0).val / 1024) + 8 * ((i 1).val / 1024) + 7, by rw [hN]; omega⟩, rfl⟩
  obtain ⟨-, -, -, -, -, -, e0, e1⟩ := idx_facts1 t
  refine ⟨t, (flush1_3 t).mpr (by omega), ?_⟩
  show i ∈ ((View.whole main_v4).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 1024 ≤ (i 1).val ∧ (i 1).val < win1_3.index t (1 : Fin 2) * 1024 + 1024
    rw [e1]; omega

end Region

/-- After region 1 its output array holds, at `(r, o)`, the sum over all 4096 columns `k` of `X r k · W o k`, plus the
    bias at `o`: the accumulator after the eighth point of a run of `k` is the sum of the eight blocks' products, a sum
    over the column blocks and within each block, which is the sum over all columns; the block written back where
    `k = 7` is that plus the bias row; and those blocks cover the array. -/
theorem final1 (V : (c : Dev nD) → (b : Ref sig .tc) → Buf (Elt Ideal) ((c : Thread nD τ).loc b)) (c : Dev nD) :
    (dat1 (F := Ideal) V c).arrAt 3 cfg1.N = Cert.Spec.Out (V c main_v0) (V c main_v3) (V c main_v2) :=
  (dat1 (F := Ideal) V c).arrAt_eq_of_cover 3 (Cert.Spec.Out (V c main_v0) (V c main_v3) (V c main_v2))
    (flushed1_eq V c) cover1

end Cert.KernelIdeal.Hand

end
-- ==== Proof.KernelVal.lean ====
/-
  What @main returns, as one function of the five argument arrays.
-/
import proofs.«401016_j1958505087322_2_alg».proof.Proof.Chain
import proofs.«401016_j1958505087322_2_alg».proof.Proof.Val0
import proofs.«401016_j1958505087322_2_alg».proof.Proof.Val1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace KernelVal

/-! ### The reshapes, index by index -/

/-- Flattening the two leading axes: row `r` of the matrix is batch `r / 2048`, position `r % 2048`. -/
theorem cast_X2 (x : (⟨3, ![4, 2048, 4096]⟩ : Shape).Idx → EReal)
    (h : (⟨3, ![4, 2048, 4096]⟩ : Shape).ShapeCasts ⟨2, ![8192, 4096]⟩) :
    shapeCast ⟨2, ![8192, 4096]⟩ x h = Cert.Spec.X2 x := by
  funext j
  refine shapeCast_apply x h j _ ?_
  rw [Shape.rowMajor_val_three, Shape.rowMajor_val_two]
  show ((j 0).val / 2048 * 2048 + (j 0).val % 2048) * 4096 + (j 1).val = (j 0).val * 4096 + (j 1).val
  omega

/-- The flat word array as a matrix of 512 words a row: entry `(o, w)` is word `o · 512 + w`. -/
theorem cast_P2 (p : (⟨1, ![2097152]⟩ : Shape).Idx → BitVec 32)
    (h : (⟨1, ![2097152]⟩ : Shape).ShapeCasts ⟨2, ![4096, 512]⟩) :
    shapeCast ⟨2, ![4096, 512]⟩ p h = Cert.Spec.P2 p := by
  funext j
  refine shapeCast_apply p h j _ ?_
  rw [Shape.rowMajor_val_one, Shape.rowMajor_val_two]
  rfl

/-- The bias as a one-row matrix: entry `(0, o)` is entry `o`. -/
theorem cast_B2 (b : (⟨1, ![4096]⟩ : Shape).Idx → EReal)
    (h : (⟨1, ![4096]⟩ : Shape).ShapeCasts ⟨2, ![1, 4096]⟩) :
    shapeCast ⟨2, ![1, 4096]⟩ b h = Cert.Spec.B2 b := by
  funext j
  refine shapeCast_apply b h j _ ?_
  rw [Shape.rowMajor_val_one, Shape.rowMajor_val_two]
  have h0 : (j 0).val < 1 := (j 0).isLt
  show (j 1).val = (j 0).val * 4096 + (j 1).val
  omega

/-- Restoring the three axes: entry `(a, b, o)` is row `a · 2048 + b`, column `o` of the matrix. -/
theorem cast_out (y : (⟨2, ![8192, 4096]⟩ : Shape).Idx → EReal)
    (h : (⟨2, ![8192, 4096]⟩ : Shape).ShapeCasts ⟨3, ![4, 2048, 4096]⟩) (j : (⟨3, ![4, 2048, 4096]⟩ : Shape).Idx) :
    shapeCast ⟨3, ![4, 2048, 4096]⟩ y h j
      = y (ix2 ⟨(j 0).val * 2048 + (j 1).val, Cert.Spec.row_lt (j 0).isLt (j 1).isLt⟩ (j 2)) := by
  refine shapeCast_apply y h j _ ?_
  rw [Shape.rowMajor_val_three, Shape.rowMajor_val_two]
  rfl

/-! ### The buffers at each boundary, from the launch contents -/

section Boundaries

variable (m : (ℓ : Loc nD τ sig) → Buf (Elt Ideal) ℓ) (c : Dev nD)

/-- Region 0's entry: the flattened rows. -/
theorem E1_v0 : E1 (F := Ideal) m c main_v0 = Cert.Spec.X2 (m ((c : Thread nD τ).loc main_arg0)) := by
  show StableHlo.after hostOps0 (Gen.V0 m c) (Proc.devRef .tc main_v0) = _
  after_results
  exact cast_X2 _ _

/-- Region 0's entry: the packed words as a matrix. -/
theorem E1_v1 : E1 (F := Ideal) m c main_v1 = Cert.Spec.P2 (m ((c : Thread nD τ).loc main_arg4)) := by
  show StableHlo.after hostOps0 (Gen.V0 m c) (Proc.devRef .tc main_v1) = _
  after_results
  exact cast_P2 _ _

/-- Region 0's entry: the bias as a row. -/
theorem E1_v2 : E1 (F := Ideal) m c main_v2 = Cert.Spec.B2 (m ((c : Thread nD τ).loc main_arg3)) := by
  show StableHlo.after hostOps0 (Gen.V0 m c) (Proc.devRef .tc main_v2) = _
  after_results
  exact cast_B2 _ _

/-- Region 0 writes neither the rows nor the bias row; region 1 reads them as region 0 found them. -/
theorem E2_v0 : E2 (F := Ideal) m c main_v0 = Cert.Spec.X2 (m ((c : Thread nD τ).loc main_arg0)) :=
  (W2_of_ne m c main_v0 (by decide)).trans (E1_v0 m c)

theorem E2_v2 : E2 (F := Ideal) m c main_v2 = Cert.Spec.B2 (m ((c : Thread nD τ).loc main_arg3)) :=
  (W2_of_ne m c main_v2 (by decide)).trans (E1_v2 m c)

/-- The scales and zero points enter region 0 as launched: no reshape writes them. -/
theorem E1_arg1 : E1 (F := Ideal) m c main_arg1 = m ((c : Thread nD τ).loc main_arg1) :=
  (Gen.V1_of m c main_arg1 (by decide)).trans rfl

theorem E1_arg2 : E1 (F := Ideal) m c main_arg2 = m ((c : Thread nD τ).loc main_arg2) :=
  (Gen.V1_of m c main_arg2 (by decide)).trans rfl

/-- Region 0 leaves the dequantised weights of the launch contents in its result array. -/
theorem E2_v3 : E2 (F := Ideal) m c main_v3
    = Cert.Spec.Wdeq (Cert.Spec.P2 (m ((c : Thread nD τ).loc main_arg4))) (m ((c : Thread nD τ).loc main_arg1))
        (m ((c : Thread nD τ).loc main_arg2)) := by
  refine (W2_arr m c 3).trans ((final0 (E1 m) c).trans ?_)
  rw [E1_v1 m c, E1_arg1 m c, E1_arg2 m c]

/-- Region 1 leaves the product plus the bias, on flattened rows, in its result array. -/
theorem W3_v4 : W3 (F := Ideal) m c (Proc.devRef .tc main_v4)
    = Cert.Spec.Out (Cert.Spec.X2 (m ((c : Thread nD τ).loc main_arg0)))
        (Cert.Spec.Wdeq (Cert.Spec.P2 (m ((c : Thread nD τ).loc main_arg4))) (m ((c : Thread nD τ).loc main_arg1))
          (m ((c : Thread nD τ).loc main_arg2)))
        (Cert.Spec.B2 (m ((c : Thread nD τ).loc main_arg3))) := by
  refine (W3_arr m c 3).trans ((final1 (E2 m) c).trans ?_)
  rw [E2_v0 m c, E2_v3 m c, E2_v2 m c]

end Boundaries

end KernelVal

open KernelVal in
/-- The result buffer at the end of @main is the layer of the launch contents of the arguments: the reshapes flatten
    the rows, lay the packed words out as a matrix and make the bias a row; region 0 leaves the dequantised weights,
    region 1 the product plus the bias, and the closing reshape restores the three axes. -/
theorem result_eq (m : (ℓ : Loc nD τ sig) → Buf (Elt Ideal) ℓ) (c : Dev nD) :
    W4 (F := Ideal) m c (Proc.devRef .tc main_v5)
      = Cert.Spec.Layer (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps2 (W3 m c) (Proc.devRef .tc main_v5) = _
  after_results
  rw [W3_v4 m c]
  funext j
  exact cast_out _ _ j

end Cert.KernelIdeal.Hand

end
-- ==== Proof.RefVal.lean ====
/-
  The reference's result is the same layer of its arguments.
-/
import proofs.«401016_j1958505087322_2_alg».proof.Proof.Gen.ReferenceIdeal.Read
import proofs.«401016_j1958505087322_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- One field of one word: the reference shifts word `w` right (arithmetically) by `4·s` and keeps the low four bits.
    The shift amount `s · 4` is below the word width, where the shift is the same on either unit. -/
theorem field_apply (x4 : (⟨S2097152, .i32⟩ : BufTy).Contents (Elt Ideal)) (w : Fin 2097152) (s : Fin 8) :
    Read.val_main_v9 (F := Ideal) x4 (ix2 w s) = Cert.Spec.field (x4 (ix1 w)) s := by
  rw [Read.val_main_v9_apply, Read.val_main_v7_apply, Read.val_main_v5_apply, Read.val_main_v4_apply,
    Read.val_main_v6_apply, Read.val_main_v3_apply, Read.val_main_v2_apply, Read.val_main_v0_apply,
    Read.val_main_v1_apply, Read.val_main_c_apply, Read.val_main_v8_apply, Read.val_main_c_0_apply]
  have e4 : Read.idx_main_v4 (Read.idx_main_v5 (ix2 w s)) = ix1 w := funext fun a => by
    match a with | ⟨0, _⟩ => rfl
  rw [e4]
  show IntOp.andi (IntOp.shrsi .host (x4 (ix1 w)) (Cert.Spec.shamt s)) 15#32 = _
  rw [Cert.Spec.shrsi_host_shamt]
  rfl

/-- The dequantised weight at row `o`, column `k`. Flat position `4096·o + k` of the weight matrix is
    `(o, k / 128, k % 128)` in the grouped view (and back again `(o, k)`), and is field `k % 8` of word
    `512·o + k / 8` in the array of unpacked fields; the scale and the zero point are those of group `k / 128`. -/
theorem weight_apply (x1 x2 : (⟨S4096x32, .f32⟩ : BufTy).Contents (Elt Ideal))
    (x4 : (⟨S2097152, .i32⟩ : BufTy).Contents (Elt Ideal)) (o k : Fin 4096) :
    Read.val_main_v19 (F := Ideal) x1 x2 x4 (ix2 o k)
      = Cert.Spec.Wdeq (Cert.Spec.P2 x4) x1 x2 (ix2 o k) := by
  have ho : o.val < 4096 := o.isLt
  have hk : k.val < 4096 := k.isLt
  have e19 : Read.idx_main_v19 (ix2 o k)
      = ix3 o (⟨k.val / 128, Cert.Spec.div128_lt hk⟩ : Fin 32) (⟨k.val % 128, Nat.mod_lt _ (by decide)⟩ : Fin 128) :=
    funext fun a => Fin.ext (by
      match a with
      | ⟨0, _⟩ => show (o.val * 4096 + k.val) / 4096 = o.val; omega
      | ⟨1, _⟩ => show (o.val * 4096 + k.val) / 128 % 32 = k.val / 128; omega
      | ⟨2, _⟩ => show (o.val * 4096 + k.val) % 128 = k.val % 128; omega)
  have e12 : Read.idx_main_v12 (ix3 o (⟨k.val / 128, Cert.Spec.div128_lt hk⟩ : Fin 32) (⟨k.val % 128, Nat.mod_lt _ (by decide)⟩ : Fin 128))
      = ix2 o k :=
    funext fun a => Fin.ext (by
      match a with
      | ⟨0, _⟩ => show ((o.val * 32 + k.val / 128) * 128 + k.val % 128) / 4096 = o.val; omega
      | ⟨1, _⟩ => show ((o.val * 32 + k.val / 128) * 128 + k.val % 128) % 4096 = k.val; omega)
  have e10 : Read.idx_main_v10 (ix2 o k)
      = ix2 (⟨o.val * 512 + k.val / 8, Cert.Spec.word_lt ho (Cert.Spec.div8_lt hk)⟩ : Fin 2097152) (⟨k.val % 8, Cert.Spec.mod8_lt _⟩ : Fin 8) :=
    funext fun a => Fin.ext (by
      match a with
      | ⟨0, _⟩ => show (o.val * 4096 + k.val) / 8 = o.val * 512 + k.val / 8; omega
      | ⟨1, _⟩ => show (o.val * 4096 + k.val) % 8 = k.val % 8; omega)
  have e13 : Read.idx_main_v13 (Read.idx_main_v17 (ix3 o (⟨k.val / 128, Cert.Spec.div128_lt hk⟩ : Fin 32) (⟨k.val % 128, Nat.mod_lt _ (by decide)⟩ : Fin 128)))
      = ix2 o (⟨k.val / 128, Cert.Spec.div128_lt hk⟩ : Fin 32) :=
    funext fun a => by match a with | ⟨0, _⟩ => rfl | ⟨1, _⟩ => rfl
  have e14 : Read.idx_main_v14 (Read.idx_main_v15 (ix3 o (⟨k.val / 128, Cert.Spec.div128_lt hk⟩ : Fin 32) (⟨k.val % 128, Nat.mod_lt _ (by decide)⟩ : Fin 128)))
      = ix2 o (⟨k.val / 128, Cert.Spec.div128_lt hk⟩ : Fin 32) :=
    funext fun a => by match a with | ⟨0, _⟩ => rfl | ⟨1, _⟩ => rfl
  rw [Read.val_main_v19_apply, e19, Read.val_main_v18_apply, Read.val_main_v17_apply, Read.val_main_v13_apply,
    Read.val_main_v16_apply, Read.val_main_v12_apply, Read.val_main_v15_apply, Read.val_main_v14_apply,
    e12, e13, e14, Read.val_main_v11_apply, Read.val_main_v10_apply, e10, field_apply]
  rfl

/-- The reference unpacks every word of the flat array into eight fields, lays the fields out as a 4096×4096 matrix
    (flat position `8·w + s`, so row `o` takes words `512·o …`), dequantises by groups of 128 columns, contracts the
    rows' last axis with the weights' last axis and adds the bias: entry by entry the layer of the arguments. -/
theorem ref_layer (x0 : (⟨S4x2048x4096, .f32⟩ : BufTy).Contents (Elt Ideal)) (x1 x2 : (⟨S4096x32, .f32⟩ : BufTy).Contents (Elt Ideal))
    (x3 : (⟨S4096, .f32⟩ : BufTy).Contents (Elt Ideal)) (x4 : (⟨S2097152, .i32⟩ : BufTy).Contents (Elt Ideal)) :
    Cert.ReferenceIdeal.Read.val_main_v23 (F := Ideal) x0 x1 x2 x3 x4 = Cert.Spec.Layer x0 x1 x2 x3 x4 := by
  funext i
  obtain ⟨a, b, o, rfl⟩ : ∃ (a : Fin 4) (b : Fin 2048) (o : Fin 4096), i = ix3 a b o := ⟨i 0, i 1, i 2, eq_ix3 i⟩
  have ha : a.val < 4 := a.isLt
  have hb : b.val < 2048 := b.isLt
  -- the bias is read at the output column
  have e21 : Read.idx_main_v21 (Read.idx_main_v22 (ix3 a b o)) = ix1 o := funext fun d => by
    match d with | ⟨0, _⟩ => rfl
  -- each summand: the row entry at (a, b, k) is entry k of flattened row a·2048 + b, times the weight at (o, k)
  have hsum : ∀ k : Fin 4096,
      x0 (Read.lidx_main_v20 (ix3 a b o) k) * Read.val_main_v19 (F := Ideal) x1 x2 x4 (Read.ridx_main_v20 (ix3 a b o) k)
        = Cert.Spec.X2 x0 (ix2 (⟨a.val * 2048 + b.val, Cert.Spec.row_lt ha hb⟩ : Fin 8192) k)
            * Cert.Spec.Wdeq (Cert.Spec.P2 x4) x1 x2 (ix2 o k) := by
    intro k
    have el : Read.lidx_main_v20 (ix3 a b o) k
        = ix3 (⟨(a.val * 2048 + b.val) / 2048, Cert.Spec.div2048_lt (Cert.Spec.row_lt ha hb)⟩ : Fin 4)
            (⟨(a.val * 2048 + b.val) % 2048, Nat.mod_lt _ (by decide)⟩ : Fin 2048) k :=
      funext fun d => Fin.ext (by
        match d with
        | ⟨0, _⟩ => show a.val = (a.val * 2048 + b.val) / 2048; omega
        | ⟨1, _⟩ => show b.val = (a.val * 2048 + b.val) % 2048; omega
        | ⟨2, _⟩ => rfl)
    have er : Read.ridx_main_v20 (ix3 a b o) k = ix2 o k := funext fun d => by
      match d with | ⟨0, _⟩ => rfl | ⟨1, _⟩ => rfl
    rw [el, er, weight_apply]
    rfl
  rw [Read.val_main_v23_apply, Read.val_main_v20_apply, Read.val_main_v22_apply, Read.val_main_v21_apply, e21,
    Finset.sum_congr rfl (fun k _ => hsum k)]
  rfl

end Cert.ReferenceIdeal.RefValue

end
-- ==== Proof.lean ====
/-
  An int4 group-quantised linear layer: the kernel and the reference compute the same function over the extended reals.

  The kernel runs two pipelined calls. The first unpacks every 32-bit word of the packed weights into eight 4-bit fields
  (`(x >>ₐ 4·s) &&& 15`), and dequantises column `i` of row `o` with the scale and zero point of group `i / 128`:
  `W o i = scale o (i/128) · (field − zero o (i/128))`. The second multiplies the flattened rows by the transposed
  weights block by block — a 1024×1024 accumulator cleared at the first of eight column blocks, increased by each
  block's product, and stored with the bias added at the eighth. The reference unpacks the flat word array, reshapes it
  to the same matrix (flat position `8·w + s` is row `(8w+s)/4096`, column `(8w+s)%4096`, and the kernel's word matrix
  has word `512·o + j` at `(o, j)`), dequantises by the same groups, contracts with one `dot_general` and adds the bias.
  At the ideal instance a change of float format is the identity and a sum may be regrouped freely (addition of
  extended reals is commutative and associative), so both are `Cert.Spec.Layer` of the arguments: the eight block sums
  are the one sum over all 4096 columns. No finiteness of the inputs is used.

  The three frames: the kernel's run through its four segments leaves every buffer that outlives the calls at a
  computed value, and no segment writes an argument; the reference's is its run with the result dropped. The ideal
  pass rewrote nothing, so `preserves` is trivial.
-/
import proofs.«401016_j1958505087322_2_alg».proof.Defs
import proofs.«401016_j1958505087322_2_alg».proof.Proof.Gen.Kernel
import proofs.«401016_j1958505087322_2_alg».proof.Proof.Gen.KernelIdeal
import proofs.«401016_j1958505087322_2_alg».proof.Proof.Gen.ReferenceIdeal
import proofs.«401016_j1958505087322_2_alg».proof.Proof.Gen.Pre_finite_inputs
import proofs.«401016_j1958505087322_2_alg».proof.Proof.Gen.ReferenceIdeal.Run
import proofs.«401016_j1958505087322_2_alg».proof.Proof.Gen.ReferenceIdeal.Read
import proofs.«401016_j1958505087322_2_alg».proof.Proof.KRun
import proofs.«401016_j1958505087322_2_alg».proof.Proof.Run
import proofs.«401016_j1958505087322_2_alg».proof.Proof.KernelVal
import proofs.«401016_j1958505087322_2_alg».proof.Proof.RefVal
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the arguments in their result buffer: the kernel's by the fold through its
    segments read at the result, the reference's by its run's term read entry by entry; the arguments agree. -/
theorem algebraic : Cert.algebraic_KernelIdeal_ReferenceIdeal := by
  intro m ρ m' ρ' _ hagree
  refine ⟨fun c => Cert.Spec.Layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Hand.mem_uc Cert.KernelIdeal.main_v5 (by decide))).trans (Cert.KernelIdeal.Hand.result_eq m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.ref_layer,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
